-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S2048x1024 : Shape := ⟨2, ![2048, 1024]⟩
abbrev S1024 : Shape := ⟨1, ![1024]⟩
abbrev S1024x97 : Shape := ⟨2, ![1024, 97]⟩
abbrev S97 : Shape := ⟨1, ![97]⟩
abbrev S8x32x4 : Shape := ⟨3, ![8, 32, 4]⟩
abbrev S8x1024x2 : Shape := ⟨3, ![8, 1024, 2]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x97 : S_.BroadcastsInDim S1024x97 (![] : Fin 0 → Fin S1024x97.rank)
  reducesTo_S1024x97_S_d0_1 : S1024x97.ReducesTo [0, 1] S_
  bcast_S_S97 : S_.BroadcastsInDim S97 (![] : Fin 0 → Fin S97.rank)
  reducesTo_S97_S_d0 : S97.ReducesTo [0] S_
  bcast_S_S8x32x4 : S_.BroadcastsInDim S8x32x4 (![] : Fin 0 → Fin S8x32x4.rank)
  reducesTo_S8x32x4_S_d0_1_2 : S8x32x4.ReducesTo [0, 1, 2] S_
  bcast_S_S8x1024x2 : S_.BroadcastsInDim S8x1024x2 (![] : Fin 0 → Fin S8x1024x2.rank)
  reducesTo_S8x1024x2_S_d0_1_2 : S8x1024x2.ReducesTo [0, 1, 2] S_

variable [Facts]

def fn_part2 {F : FTy → Type} [FloatOps F] (main_arg6 : IVec S8x1024x2 32) (main_v30 : IVec S_ 1) (main_v32 : IVec S8x1024x2 1) (main_c_12 : IVec S_ 32) : IVec S_ 1 :=
  let main_v33 : IVec S8x1024x2 32 := broadcastInDim S8x1024x2 ![] bcast_S_S8x1024x2 main_c_12
  let main_v34 : IVec S8x1024x2 1 := cmpi .slt main_arg6 main_v33
  let main_v35 : IVec S8x1024x2 1 := andi main_v32 main_v34
  let main_c_13 : IVec S_ 1 := constantI S_ 1 1#1
  let main_v36 : IVec S_ 1 := (fun x v => Host.reduce IntOp.andi x v reducesTo_S8x1024x2_S_d0_1_2 h_S_) main_v35 main_c_13
  let main_v37 : IVec S_ 1 := andi main_v30 main_v36
  main_v37

def fn_part1 {F : FTy → Type} [FloatOps F] (main_arg4 : FVec F S97 .f32) (main_arg5 : IVec S8x32x4 32) (main_arg6 : IVec S8x1024x2 32) (main_v13 : IVec S_ 1) (main_v16 : IVec S1024x97 1) : IVec S_ 1 :=
  let main_c_5 : IVec S_ 1 := constantI S_ 1 1#1
  let main_v17 : IVec S_ 1 := (fun x v => Host.reduce IntOp.andi x v reducesTo_S1024x97_S_d0_1 h_S_) main_v16 main_c_5
  let main_v18 : IVec S_ 1 := andi main_v13 main_v17
  let main_v19 : FVec F S97 .f32 := Host.absf main_arg4
  let main_cst_6 : FVec F S_ .f32 := constant S_ .f32 0x7F800000#32
  let main_v20 : FVec F S97 .f32 := broadcastInDim S97 ![] bcast_S_S97 main_cst_6
  let main_v21 : IVec S97 1 := cmpf .olt main_v19 main_v20
  let main_c_7 : IVec S_ 1 := constantI S_ 1 1#1
  let main_v22 : IVec S_ 1 := (fun x v => Host.reduce IntOp.andi x v reducesTo_S97_S_d0 h_S_) main_v21 main_c_7
  let main_v23 : IVec S_ 1 := andi main_v18 main_v22
  let main_c_8 : IVec S_ 32 := constantI S_ 32 0#32
  let main_v24 : IVec S8x32x4 32 := broadcastInDim S8x32x4 ![] bcast_S_S8x32x4 main_c_8
  let main_v25 : IVec S8x32x4 1 := cmpi .sge main_arg5 main_v24
  let main_c_9 : IVec S_ 32 := constantI S_ 32 2048#32
  let main_v26 : IVec S8x32x4 32 := broadcastInDim S8x32x4 ![] bcast_S_S8x32x4 main_c_9
  let main_v27 : IVec S8x32x4 1 := cmpi .slt main_arg5 main_v26
  let main_v28 : IVec S8x32x4 1 := andi main_v25 main_v27
  let main_c_10 : IVec S_ 1 := constantI S_ 1 1#1
  let main_v29 : IVec S_ 1 := (fun x v => Host.reduce IntOp.andi x v reducesTo_S8x32x4_S_d0_1_2 h_S_) main_v28 main_c_10
  let main_v30 : IVec S_ 1 := andi main_v23 main_v29
  let main_c_11 : IVec S_ 32 := constantI S_ 32 0#32
  let main_v31 : IVec S8x1024x2 32 := broadcastInDim S8x1024x2 ![] bcast_S_S8x1024x2 main_c_11
  let main_v32 : IVec S8x1024x2 1 := cmpi .sge main_arg6 main_v31
  let main_c_12 : IVec S_ 32 := constantI S_ 32 32#32
  fn_part2 (F := F) main_arg6 main_v30 main_v32 main_c_12

def fn {F : FTy → Type} [FloatOps F] (main_arg0 : FVec F S8x2048x1024 .f32) (main_arg1 : FVec F S2048x1024 .f32) (main_arg2 : FVec F S1024 .f32) (main_arg3 : FVec F S1024x97 .f32) (main_arg4 : FVec F S97 .f32) (main_arg5 : IVec S8x32x4 32) (main_arg6 : IVec S8x1024x2 32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x97 .f32 := Host.absf main_arg3
  let main_cst_4 : FVec F S_ .f32 := constant S_ .f32 0x7F800000#32
  let main_v15 : FVec F S1024x97 .f32 := broadcastInDim S1024x97 ![] bcast_S_S1024x97 main_cst_4
  let main_v16 : IVec S1024x97 1 := cmpf .olt main_v14 main_v15
  fn_part1 (F := F) main_arg4 main_arg5 main_arg6 main_v13 main_v16
-- ==== Kernel.lean ====
abbrev S8x2048x1024 : Shape := ⟨3, ![8, 2048, 1024]⟩
abbrev S2048x1024 : Shape := ⟨2, ![2048, 1024]⟩
abbrev S1024 : Shape := ⟨1, ![1024]⟩
abbrev S1024x97 : Shape := ⟨2, ![1024, 97]⟩
abbrev S97 : Shape := ⟨1, ![97]⟩
abbrev S8x32x4 : Shape := ⟨3, ![8, 32, 4]⟩
abbrev S8x1024x2 : Shape := ⟨3, ![8, 1024, 2]⟩
abbrev S_ : Shape := ⟨0, ![]⟩
abbrev S1024x128 : Shape := ⟨2, ![1024, 128]⟩
abbrev S1 : Shape := ⟨1, ![1]⟩
abbrev S128 : Shape := ⟨1, ![128]⟩
abbrev S1024x1024 : Shape := ⟨2, ![1024, 1024]⟩
abbrev S1x1024 : Shape := ⟨2, ![1, 1024]⟩
abbrev S1x128 : Shape := ⟨2, ![1, 128]⟩
abbrev S8x2x1024 : Shape := ⟨3, ![8, 2, 1024]⟩
abbrev S8x1024x128 : Shape := ⟨3, ![8, 1024, 128]⟩
abbrev S8x1024x97 : Shape := ⟨3, ![8, 1024, 97]⟩
abbrev S8192x97 : Shape := ⟨2, ![8192, 97]⟩
abbrev S1x2048x1024 : Shape := ⟨3, ![1, 2048, 1024]⟩
abbrev S1x32x4 : Shape := ⟨3, ![1, 32, 4]⟩
abbrev S1x2x1024 : Shape := ⟨3, ![1, 2, 1024]⟩
abbrev S1x1024x128 : Shape := ⟨3, ![1, 1024, 128]⟩
abbrev S32x4 : Shape := ⟨2, ![32, 4]⟩
abbrev S32x2048 : Shape := ⟨2, ![32, 2048]⟩
abbrev S32x1 : Shape := ⟨2, ![32, 1]⟩
abbrev S32 : Shape := ⟨1, ![32]⟩
abbrev S32x1024 : Shape := ⟨2, ![32, 1024]⟩
abbrev S32x128 : Shape := ⟨2, ![32, 128]⟩
abbrev S2x1024 : Shape := ⟨2, ![2, 1024]⟩
abbrev S1024x1 : Shape := ⟨2, ![1024, 1]⟩
abbrev S1024x32 : Shape := ⟨2, ![1024, 32]⟩

abbrev nBuf : Space → Nat
  | .hbm => 31
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S2048x1024, .f32⟩
  | .hbm, ⟨2, _⟩ => ⟨S1024, .f32⟩
  | .hbm, ⟨3, _⟩ => ⟨S1024x97, .f32⟩
  | .hbm, ⟨4, _⟩ => ⟨S97, .f32⟩
  | .hbm, ⟨5, _⟩ => ⟨S8x32x4, .i32⟩
  | .hbm, ⟨6, _⟩ => ⟨S8x1024x2, .i32⟩
  | .hbm, ⟨7, _⟩ => ⟨S_, .f32⟩
  | .hbm, ⟨8, _⟩ => ⟨S1024x128, .f32⟩
  | .hbm, ⟨9, _⟩ => ⟨S_, .i32⟩
  | .hbm, ⟨10, _⟩ => ⟨S1, .i32⟩
  | .hbm, ⟨11, _⟩ => ⟨S1024x128, .f32⟩
  | .hbm, ⟨12, _⟩ => ⟨S_, .f32⟩
  | .hbm, ⟨13, _⟩ => ⟨S128, .f32⟩
  | .hbm, ⟨14, _⟩ => ⟨S_, .i32⟩
  | .hbm, ⟨15, _⟩ => ⟨S1, .i32⟩
  | .hbm, ⟨16, _⟩ => ⟨S128, .f32⟩
  | .hbm, ⟨17, _⟩ => ⟨S1024x1024, .f32⟩
  | .hbm, ⟨18, _⟩ => ⟨S1024x1024, .f32⟩
  | .hbm, ⟨19, _⟩ => ⟨S1024x128, .f32⟩
  | .hbm, ⟨20, _⟩ => ⟨S1024x128, .bf16⟩
  | .hbm, ⟨21, _⟩ => ⟨S1024x128, .f32⟩
  | .hbm, ⟨22, _⟩ => ⟨S1024x128, .bf16⟩
  | .hbm, ⟨23, _⟩ => ⟨S1x1024, .f32⟩
  | .hbm, ⟨24, _⟩ => ⟨S1x128, .f32⟩
  | .hbm, ⟨25, _⟩ => ⟨S128, .f32⟩
  | .hbm, ⟨26, _⟩ => ⟨S128, .f32⟩
  | .hbm, ⟨27, _⟩ => ⟨S8x2x1024, .i32⟩
  | .hbm, ⟨28, _⟩ => ⟨S8x1024x128, .f32⟩
  | .hbm, ⟨29, _⟩ => ⟨S8x1024x97, .f32⟩
  | .hbm, ⟨30, _⟩ => ⟨S8192x97, .f32⟩
  | .local _ .vmem, ⟨0, _⟩ => ⟨S1x2048x1024, .f32⟩
  | .local _ .vmem, ⟨1, _⟩ => ⟨S1x2048x1024, .f32⟩
  | .local _ .vmem, ⟨2, _⟩ => ⟨S1x32x4, .i32⟩
  | .local _ .vmem, ⟨3, _⟩ => ⟨S1x32x4, .i32⟩
  | .local _ .vmem, ⟨4, _⟩ => ⟨S1x2x1024, .i32⟩
  | .local _ .vmem, ⟨5, _⟩ => ⟨S1x2x1024, .i32⟩
  | .local _ .vmem, ⟨6, _⟩ => ⟨S1024x128, .bf16⟩
  | .local _ .vmem, ⟨7, _⟩ => ⟨S1024x128, .bf16⟩
  | .local _ .vmem, ⟨8, _⟩ => ⟨S128, .f32⟩
  | .local _ .vmem, ⟨9, _⟩ => ⟨S1x1024x128, .f32⟩
  | .local _ .vmem, ⟨10, _⟩ => ⟨S1x1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_cst_0 : Ref sig .tc := ⟨.hbm, 12, rfl⟩
abbrev main_call0_v3 : Ref sig .tc := ⟨.hbm, 13, rfl⟩
abbrev main_call0_c_1 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1024x128 : S_.BroadcastsInDim S1024x128 (![] : Fin 0 → Fin S1024x128.rank)
  bcast_S_S1 : S_.BroadcastsInDim S1 (![] : Fin 0 → Fin S1.rank)
  bcast_S_S128 : S_.BroadcastsInDim S128 (![] : Fin 0 → Fin S128.rank)
  slices_S2048x1024_S1024x1024_0_0 : S2048x1024.Slices ![0, 0] S1024x1024
  slices_S2048x1024_S1024x1024_1024_0 : S2048x1024.Slices ![1024, 0] S1024x1024
  bitsLt_bf16_f32 : FTy.bits .bf16 < FTy.bits .f32
  shapeCasts_S1024_S1x1024 : S1024.ShapeCasts S1x1024
  shapeCasts_S1x128_S128 : S1x128.ShapeCasts S128
  transposes_S8x1024x2_S8x2x1024_0_2_1 : S8x1024x2.Transposes [0, 2, 1] S8x2x1024
  slices_S8x1024x128_S8x1024x97_0_0_0 : S8x1024x128.Slices ![0, 0, 0] S8x1024x97
  shapeCasts_S8x1024x97_S8192x97 : S8x1024x97.ShapeCasts S8192x97
  inb_S1x32x4_S1x32x4_0_0_0 : ∀ a, (![0, 0, 0] : Fin 3 → Nat) a + S1x32x4.size a ≤ S1x32x4.size a
  h_S1x32x4 : 0 < S1x32x4.numel
  shapeCasts_S1x32x4_S32x4 : S1x32x4.ShapeCasts S32x4
  iota_S32x2048_d1_w32 : S32x2048.Iotas .tc 32 [1]
  slices_S32x4_o0_0_S32x1 : S32x4.Slices ![0, 0] S32x1
  shapeCasts_S32x1_S32 : S32x1.ShapeCasts S32
  shapeCasts_S32_S32x1 : S32.ShapeCasts S32x1
  broadcasts_S32x1_S32x2048 : S32x1.Broadcasts S32x2048
  natLt_1_32 : 1 < 32
  slices_S32x4_o0_1_S32x1 : S32x4.Slices ![0, 1] S32x1
  slices_S32x4_o0_2_S32x1 : S32x4.Slices ![0, 2] S32x1
  slices_S32x4_o0_3_S32x1 : S32x4.Slices ![0, 3] S32x1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x2x1024_S1x2x1024_0_0_0 : ∀ a, (![0, 0, 0] : Fin 3 → Nat) a + S1x2x1024.size a ≤ S1x2x1024.size a
  h_S1x2x1024 : 0 < S1x2x1024.numel
  shapeCasts_S1x2x1024_S2x1024 : S1x2x1024.ShapeCasts S2x1024
  slices_S2x1024_o0_0_S1x1024 : S2x1024.Slices ![0, 0] S1x1024
  shapeCasts_S1x1024_S1024 : S1x1024.ShapeCasts S1024
  shapeCasts_S1024_S1024x1 : S1024.ShapeCasts S1024x1
  slices_S2x1024_o1_0_S1x1024 : S2x1024.Slices ![1, 0] S1x1024
  iota_S1024x32_d1_w32 : S1024x32.Iotas .tc 32 [1]
  broadcasts_S1024x1_S1024x32 : S1024x1.Broadcasts S1024x32
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  scatter_S1024x128_S1_S1024x97_01_n_1_0_wf : ScatterDims.WF S1024x128 S1 S1024x97 [0, 1] [] [1] 0
  scatter_S128_S1_S97_0_n_0_0_wf : ScatterDims.WF S128 S1 S97 [0] [] [0] 0
  dot_S1024x1024_S1024x128_S1024x128_1_0_0_1_n_n_wf : DotDims.WF S1024x1024 S1024x128 S1024x128 [1] [0] [0] [1] [] []
  dot_S1x1024_S1024x128_S1x128_1_0_0_1_n_n_wf : DotDims.WF S1x1024 S1024x128 S1x128 [1] [0] [0] [1] [] []
  dot_S32x2048_S2048x1024_S32x1024_1_0_0_1_n_n_wf : DotDims.WF S32x2048 S2048x1024 S32x1024 [1] [0] [0] [1] [] []
  dot_S32x1024_S1024x128_S32x128_1_0_0_1_n_n_wf : DotDims.WF S32x1024 S1024x128 S32x128 [1] [0] [0] [1] [] []
  dot_S1024x32_S32x128_S1024x128_1_0_0_1_n_n_wf : DotDims.WF S1024x32 S32x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x4.size a ≤ S8x32x4.size a
  hwx0_1 : ∀ i : grid0.Coords, EltTy.bits .i32 = 32 ∨ (Rect.block (s := S8x32x4) S1x32x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x1024.size a ≤ S8x2x1024.size a
  hwx0_2 : ∀ i : grid0.Coords, EltTy.bits .i32 = 32 ∨ (Rect.block (s := S8x2x1024) S1x2x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S8x1024x128.size a
  hwx0_6 : ∀ i : grid0.Coords, EltTy.bits .f32 = 32 ∨ (Rect.block (s := S8x1024x128) S1x1024x128.size (cc0_transform_6 i) (hinb0_6 i)).WholeWords (EltTy.packing .f32)

variable [Facts₀]

def scatter_S1024x128_S1_S1024x97_01_n_1_0 : ScatterDims S1024x128 S1 S1024x97 where
  updateWindowDims := [0, 1]
  insertedWindowDims := []
  scatterDimsToOperandDims := [1]
  indexVectorDim := 0
  wf := scatter_S1024x128_S1_S1024x97_01_n_1_0_wf
def scatter_S128_S1_S97_0_n_0_0 : ScatterDims S128 S1 S97 where
  updateWindowDims := [0]
  insertedWindowDims := []
  scatterDimsToOperandDims := [0]
  indexVectorDim := 0
  wf := scatter_S128_S1_S97_0_n_0_0_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1x1024_S1024x128_S1x128_1_0_0_1_n_n : DotDims S1x1024 S1024x128 S1x128 where
  lhsContracting := [1]
  rhsContracting := [0]
  lhsNonContracting := [0]
  rhsNonContracting := [1]
  lhsBatch := []
  rhsBatch := []
  wf := dot_S1x1024_S1024x128_S1x128_1_0_0_1_n_n_wf
def dot_S32x2048_S2048x1024_S32x1024_1_0_0_1_n_n : DotDims S32x2048 S2048x1024 S32x1024 where
  lhsContracting := [1]
  rhsContracting := [0]
  lhsNonContracting := [0]
  rhsNonContracting := [1]
  lhsBatch := []
  rhsBatch := []
  wf := dot_S32x2048_S2048x1024_S32x1024_1_0_0_1_n_n_wf
def dot_S32x1024_S1024x128_S32x128_1_0_0_1_n_n : DotDims S32x1024 S1024x128 S32x128 where
  lhsContracting := [1]
  rhsContracting := [0]
  lhsNonContracting := [0]
  rhsNonContracting := [1]
  lhsBatch := []
  rhsBatch := []
  wf := dot_S32x1024_S1024x128_S32x128_1_0_0_1_n_n_wf
def dot_S1024x32_S32x128_S1024x128_1_0_0_1_n_n : DotDims S1024x32 S32x128 S1024x128 where
  lhsContracting := [1]
  rhsContracting := [0]
  lhsNonContracting := [0]
  rhsNonContracting := [1]
  lhsBatch := []
  rhsBatch := []
  wf := dot_S1024x32_S32x128_S1024x128_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1x32x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S1x2x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v9) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v15) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v17) S1x1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S2048x1024 : Shape := ⟨2, ![2048, 1024]⟩
abbrev S1024 : Shape := ⟨1, ![1024]⟩
abbrev S1024x97 : Shape := ⟨2, ![1024, 97]⟩
abbrev S97 : Shape := ⟨1, ![97]⟩
abbrev S8x32x4 : Shape := ⟨3, ![8, 32, 4]⟩
abbrev S8x1024x2 : Shape := ⟨3, ![8, 1024, 2]⟩
abbrev S8x1024x1 : Shape := ⟨3, ![8, 1024, 1]⟩
abbrev S8x1024 : Shape := ⟨2, ![8, 1024]⟩
abbrev S8x1024x4 : Shape := ⟨3, ![8, 1024, 4]⟩
abbrev S_ : Shape := ⟨0, ![]⟩
abbrev S8x1024x4x1 : Shape := ⟨4, ![8, 1024, 4, 1]⟩
abbrev S1 : Shape := ⟨1, ![1]⟩
abbrev S1x1x1x1 : Shape := ⟨4, ![1, 1, 1, 1]⟩
abbrev S8x4096x1 : Shape := ⟨3, ![8, 4096, 1]⟩
abbrev S1x1x1 : Shape := ⟨3, ![1, 1, 1]⟩
abbrev S8x4096 : Shape := ⟨2, ![8, 4096]⟩
abbrev S8x4096x1024 : Shape := ⟨3, ![8, 4096, 1024]⟩
abbrev S8x1024x4x1024 : Shape := ⟨4, ![8, 1024, 4, 1024]⟩
abbrev S8x1024x1024 : Shape := ⟨3, ![8, 1024, 1024]⟩
abbrev S8x1024x2048 : Shape := ⟨3, ![8, 1024, 2048]⟩
abbrev S8192x2048 : Shape := ⟨2, ![8192, 2048]⟩
abbrev S8192x1024 : Shape := ⟨2, ![8192, 1024]⟩
abbrev S1x1024 : Shape := ⟨2, ![1, 1024]⟩
abbrev S8192x97 : Shape := ⟨2, ![8192, 97]⟩
abbrev S1x97 : Shape := ⟨2, ![1, 97]⟩

abbrev nBuf : Space → Nat
  | .hbm => 121
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2048x1024, .f32⟩
  | .hbm, ⟨2, _⟩ => ⟨S1024, .f32⟩
  | .hbm, ⟨3, _⟩ => ⟨S1024x97, .f32⟩
  | .hbm, ⟨4, _⟩ => ⟨S97, .f32⟩
  | .hbm, ⟨5, _⟩ => ⟨S8x32x4, .i32⟩
  | .hbm, ⟨6, _⟩ => ⟨S8x1024x2, .i32⟩
  | .hbm, ⟨7, _⟩ => ⟨S8x1024x1, .i32⟩
  | .hbm, ⟨8, _⟩ => ⟨S8x1024, .i32⟩
  | .hbm, ⟨9, _⟩ => ⟨S8x1024x1, .i32⟩
  | .hbm, ⟨10, _⟩ => ⟨S8x1024x4, .i32⟩
  | .hbm, ⟨11, _⟩ => ⟨S_, .i32⟩
  | .hbm, ⟨12, _⟩ => ⟨S8x1024x4, .i32⟩
  | .hbm, ⟨13, _⟩ => ⟨S8x1024x4, .i1⟩
  | .hbm, ⟨14, _⟩ => ⟨S_, .i32⟩
  | .hbm, ⟨15, _⟩ => ⟨S8x1024x4, .i32⟩
  | .hbm, ⟨16, _⟩ => ⟨S8x1024x4, .i32⟩
  | .hbm, ⟨17, _⟩ => ⟨S8x1024x4, .i32⟩
  | .hbm, ⟨18, _⟩ => ⟨S8x1024x4x1, .i32⟩
  | .hbm, ⟨19, _⟩ => ⟨S1, .i32⟩
  | .hbm, ⟨20, _⟩ => ⟨S_, .i32⟩
  | .hbm, ⟨21, _⟩ => ⟨S8x1024x4x1, .i32⟩
  | .hbm, ⟨22, _⟩ => ⟨S8x1024x4x1, .i1⟩
  | .hbm, ⟨23, _⟩ => ⟨S1x1x1x1, .i32⟩
  | .hbm, ⟨24, _⟩ => ⟨S8x1024x4x1, .i32⟩
  | .hbm, ⟨25, _⟩ => ⟨S8x1024x4x1, .i1⟩
  | .hbm, ⟨26, _⟩ => ⟨S8x1024x4x1, .i1⟩
  | .hbm, ⟨27, _⟩ => ⟨S_, .i1⟩
  | .hbm, ⟨28, _⟩ => ⟨S8x1024x4, .i1⟩
  | .hbm, ⟨29, _⟩ => ⟨S8x1024x4, .i32⟩
  | .hbm, ⟨30, _⟩ => ⟨S_, .i32⟩
  | .hbm, ⟨31, _⟩ => ⟨S8x1024x4, .i32⟩
  | .hbm, ⟨32, _⟩ => ⟨S8x1024x4, .i32⟩
  | .hbm, ⟨33, _⟩ => ⟨S8x4096x1, .i32⟩
  | .hbm, ⟨34, _⟩ => ⟨S_, .i32⟩
  | .hbm, ⟨35, _⟩ => ⟨S8x4096x1, .i32⟩
  | .hbm, ⟨36, _⟩ => ⟨S8x4096x1, .i1⟩
  | .hbm, ⟨37, _⟩ => ⟨S_, .i32⟩
  | .hbm, ⟨38, _⟩ => ⟨S8x4096x1, .i32⟩
  | .hbm, ⟨39, _⟩ => ⟨S8x4096x1, .i32⟩
  | .hbm, ⟨40, _⟩ => ⟨S8x4096x1, .i32⟩
  | .hbm, ⟨41, _⟩ => ⟨S1, .i32⟩
  | .hbm, ⟨42, _⟩ => ⟨S_, .i32⟩
  | .hbm, ⟨43, _⟩ => ⟨S8x4096x1, .i32⟩
  | .hbm, ⟨44, _⟩ => ⟨S8x4096x1, .i1⟩
  | .hbm, ⟨45, _⟩ => ⟨S1x1x1, .i32⟩
  | .hbm, ⟨46, _⟩ => ⟨S8x4096x1, .i32⟩
  | .hbm, ⟨47, _⟩ => ⟨S8x4096x1, .i1⟩
  | .hbm, ⟨48, _⟩ => ⟨S8x4096x1, .i1⟩
  | .hbm, ⟨49, _⟩ => ⟨S_, .i1⟩
  | .hbm, ⟨50, _⟩ => ⟨S8x4096, .i1⟩
  | .hbm, ⟨51, _⟩ => ⟨S8x4096x1024, .f32⟩
  | .hbm, ⟨52, _⟩ => ⟨S8x4096x1024, .i1⟩
  | .hbm, ⟨53, _⟩ => ⟨S_, .f32⟩
  | .hbm, ⟨54, _⟩ => ⟨S8x4096x1024, .f32⟩
  | .hbm, ⟨55, _⟩ => ⟨S8x4096x1024, .f32⟩
  | .hbm, ⟨56, _⟩ => ⟨S8x1024x4x1024, .f32⟩
  | .hbm, ⟨57, _⟩ => ⟨S_, .f32⟩
  | .hbm, ⟨58, _⟩ => ⟨S8x1024x1024, .f32⟩
  | .hbm, ⟨59, _⟩ => ⟨S8x1024x1, .i32⟩
  | .hbm, ⟨60, _⟩ => ⟨S8x1024, .i32⟩
  | .hbm, ⟨61, _⟩ => ⟨S8x1024x1, .i32⟩
  | .hbm, ⟨62, _⟩ => ⟨S8x1024x4, .i32⟩
  | .hbm, ⟨63, _⟩ => ⟨S_, .i32⟩
  | .hbm, ⟨64, _⟩ => ⟨S8x1024x4, .i32⟩
  | .hbm, ⟨65, _⟩ => ⟨S8x1024x4, .i1⟩
  | .hbm, ⟨66, _⟩ => ⟨S_, .i32⟩
  | .hbm, ⟨67, _⟩ => ⟨S8x1024x4, .i32⟩
  | .hbm, ⟨68, _⟩ => ⟨S8x1024x4, .i32⟩
  | .hbm, ⟨69, _⟩ => ⟨S8x1024x4, .i32⟩
  | .hbm, ⟨70, _⟩ => ⟨S8x1024x4x1, .i32⟩
  | .hbm, ⟨71, _⟩ => ⟨S1, .i32⟩
  | .hbm, ⟨72, _⟩ => ⟨S_, .i32⟩
  | .hbm, ⟨73, _⟩ => ⟨S8x1024x4x1, .i32⟩
  | .hbm, ⟨74, _⟩ => ⟨S8x1024x4x1, .i1⟩
  | .hbm, ⟨75, _⟩ => ⟨S1x1x1x1, .i32⟩
  | .hbm, ⟨76, _⟩ => ⟨S8x1024x4x1, .i32⟩
  | .hbm, ⟨77, _⟩ => ⟨S8x1024x4x1, .i1⟩
  | .hbm, ⟨78, _⟩ => ⟨S8x1024x4x1, .i1⟩
  | .hbm, ⟨79, _⟩ => ⟨S_, .i1⟩
  | .hbm, ⟨80, _⟩ => ⟨S8x1024x4, .i1⟩
  | .hbm, ⟨81, _⟩ => ⟨S8x1024x4, .i32⟩
  | .hbm, ⟨82, _⟩ => ⟨S_, .i32⟩
  | .hbm, ⟨83, _⟩ => ⟨S8x1024x4, .i32⟩
  | .hbm, ⟨84, _⟩ => ⟨S8x1024x4, .i32⟩
  | .hbm, ⟨85, _⟩ => ⟨S8x4096x1, .i32⟩
  | .hbm, ⟨86, _⟩ => ⟨S_, .i32⟩
  | .hbm, ⟨87, _⟩ => ⟨S8x4096x1, .i32⟩
  | .hbm, ⟨88, _⟩ => ⟨S8x4096x1, .i1⟩
  | .hbm, ⟨89, _⟩ => ⟨S_, .i32⟩
  | .hbm, ⟨90, _⟩ => ⟨S8x4096x1, .i32⟩
  | .hbm, ⟨91, _⟩ => ⟨S8x4096x1, .i32⟩
  | .hbm, ⟨92, _⟩ => ⟨S8x4096x1, .i32⟩
  | .hbm, ⟨93, _⟩ => ⟨S1, .i32⟩
  | .hbm, ⟨94, _⟩ => ⟨S_, .i32⟩
  | .hbm, ⟨95, _⟩ => ⟨S8x4096x1, .i32⟩
  | .hbm, ⟨96, _⟩ => ⟨S8x4096x1, .i1⟩
  | .hbm, ⟨97, _⟩ => ⟨S1x1x1, .i32⟩
  | .hbm, ⟨98, _⟩ => ⟨S8x4096x1, .i32⟩
  | .hbm, ⟨99, _⟩ => ⟨S8x4096x1, .i1⟩
  | .hbm, ⟨100, _⟩ => ⟨S8x4096x1, .i1⟩
  | .hbm, ⟨101, _⟩ => ⟨S_, .i1⟩
  | .hbm, ⟨102, _⟩ => ⟨S8x4096, .i1⟩
  | .hbm, ⟨103, _⟩ => ⟨S8x4096x1024, .f32⟩
  | .hbm, ⟨104, _⟩ => ⟨S8x4096x1024, .i1⟩
  | .hbm, ⟨105, _⟩ => ⟨S_, .f32⟩
  | .hbm, ⟨106, _⟩ => ⟨S8x4096x1024, .f32⟩
  | .hbm, ⟨107, _⟩ => ⟨S8x4096x1024, .f32⟩
  | .hbm, ⟨108, _⟩ => ⟨S8x1024x4x1024, .f32⟩
  | .hbm, ⟨109, _⟩ => ⟨S_, .f32⟩
  | .hbm, ⟨110, _⟩ => ⟨S8x1024x1024, .f32⟩
  | .hbm, ⟨111, _⟩ => ⟨S8x1024x2048, .f32⟩
  | .hbm, ⟨112, _⟩ => ⟨S8192x2048, .f32⟩
  | .hbm, ⟨113, _⟩ => ⟨S8192x1024, .f32⟩
  | .hbm, ⟨114, _⟩ => ⟨S1x1024, .f32⟩
  | .hbm, ⟨115, _⟩ => ⟨S8192x1024, .f32⟩
  | .hbm, ⟨116, _⟩ => ⟨S8192x1024, .f32⟩
  | .hbm, ⟨117, _⟩ => ⟨S8192x97, .f32⟩
  | .hbm, ⟨118, _⟩ => ⟨S1x97, .f32⟩
  | .hbm, ⟨119, _⟩ => ⟨S8192x97, .f32⟩
  | .hbm, ⟨120, _⟩ => ⟨S8192x97, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_c_4 : Ref sig .tc := ⟨.hbm, 30, rfl⟩
abbrev main_call0_v14 : Ref sig .tc := ⟨.hbm, 31, rfl⟩
abbrev main_v4 : Ref sig .tc := ⟨.hbm, 32, rfl⟩
abbrev main_v5 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_c_2 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_c_3 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v6 : Ref sig .tc := ⟨.hbm, 55, rfl⟩
abbrev main_v7 : Ref sig .tc := ⟨.hbm, 56, rfl⟩
abbrev main_cst : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_c_4 : Ref sig .tc := ⟨.hbm, 82, rfl⟩
abbrev main_call2_v14 : Ref sig .tc := ⟨.hbm, 83, rfl⟩
abbrev main_v13 : Ref sig .tc := ⟨.hbm, 84, rfl⟩
abbrev main_v14 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_c_1 : Ref sig .tc := ⟨.hbm, 93, rfl⟩
abbrev main_call3_c_2 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_c_3 : Ref sig .tc := ⟨.hbm, 101, rfl⟩
abbrev main_call3_v11 : Ref sig .tc := ⟨.hbm, 102, rfl⟩
abbrev main_call3_v12 : Ref sig .tc := ⟨.hbm, 103, rfl⟩
abbrev main_call3_v13 : Ref sig .tc := ⟨.hbm, 104, rfl⟩
abbrev main_call3_cst : Ref sig .tc := ⟨.hbm, 105, rfl⟩
abbrev main_call3_v14 : Ref sig .tc := ⟨.hbm, 106, rfl⟩
abbrev main_v15 : Ref sig .tc := ⟨.hbm, 107, rfl⟩
abbrev main_v16 : Ref sig .tc := ⟨.hbm, 108, rfl⟩
abbrev main_cst_0 : Ref sig .tc := ⟨.hbm, 109, rfl⟩
abbrev main_v17 : Ref sig .tc := ⟨.hbm, 110, rfl⟩
abbrev main_v18 : Ref sig .tc := ⟨.hbm, 111, rfl⟩
abbrev main_v19 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_v24 : Ref sig .tc := ⟨.hbm, 117, rfl⟩
abbrev main_v25 : Ref sig .tc := ⟨.hbm, 118, rfl⟩
abbrev main_v26 : Ref sig .tc := ⟨.hbm, 119, rfl⟩
abbrev main_v27 : Ref sig .tc := ⟨.hbm, 120, rfl⟩

abbrev nD : Nat := 1
abbrev τ : Topo := Topo.v7x

variable {F : FTy → Type} [FloatOps F]

class Facts₀ : Prop where
  slices_S8x1024x2_S8x1024x1_0_0_0 : S8x1024x2.Slices ![0, 0, 0] S8x1024x1
  shapeCasts_S8x1024x1_S8x1024 : S8x1024x1.ShapeCasts S8x1024
  bcast_S8x1024_S8x1024x1_0_1 : S8x1024.BroadcastsInDim S8x1024x1 (![0, 1] : Fin 2 → Fin S8x1024x1.rank)
  bcast_S8x1024x1_S8x1024x4_0_1_2 : S8x1024x1.BroadcastsInDim S8x1024x4 (![0, 1, 2] : Fin 3 → Fin S8x1024x4.rank)
  bcast_S_S8x1024x4 : S_.BroadcastsInDim S8x1024x4 (![] : Fin 0 → Fin S8x1024x4.rank)
  shapeCasts_S8x1024x4_S8x1024x4x1 : S8x1024x4.ShapeCasts S8x1024x4x1
  bcast_S_S8x1024x4x1 : S_.BroadcastsInDim S8x1024x4x1 (![] : Fin 0 → Fin S8x1024x4x1.rank)
  bcast_S1_S1x1x1x1_3 : S1.BroadcastsInDim S1x1x1x1 (![3] : Fin 1 → Fin S1x1x1x1.rank)
  bcast_S1x1x1x1_S8x1024x4x1_0_1_2_3 : S1x1x1x1.BroadcastsInDim S8x1024x4x1 (![0, 1, 2, 3] : Fin 4 → Fin S8x1024x4x1.rank)
  reducesTo_S8x1024x4x1_S8x1024x4_d3 : S8x1024x4x1.ReducesTo [3] S8x1024x4
  h_S_ : 0 < S_.numel
  shapeCasts_S8x1024x4_S8x4096x1 : S8x1024x4.ShapeCasts S8x4096x1
  bcast_S_S8x4096x1 : S_.BroadcastsInDim S8x4096x1 (![] : Fin 0 → Fin S8x4096x1.rank)
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  reducesTo_S8x4096x1_S8x4096_d2 : S8x4096x1.ReducesTo [2] S8x4096
  bcast_S8x4096_S8x4096x1024_0_1 : S8x4096.BroadcastsInDim S8x4096x1024 (![0, 1] : Fin 2 → Fin S8x4096x1024.rank)
  bcast_S_S8x4096x1024 : S_.BroadcastsInDim S8x4096x1024 (![] : Fin 0 → Fin S8x4096x1024.rank)
  shapeCasts_S8x4096x1024_S8x1024x4x1024 : S8x4096x1024.ShapeCasts S8x1024x4x1024
  reducesTo_S8x1024x4x1024_S8x1024x1024_d2 : S8x1024x4x1024.ReducesTo [2] S8x1024x1024
  slices_S8x1024x2_S8x1024x1_0_0_1 : S8x1024x2.Slices ![0, 0, 1] S8x1024x1
  concatenates_S8x1024x1024_S8x1024x1024_S8x1024x2048_d2 : Shape.Concatenates [S8x1024x1024, S8x1024x1024] S8x1024x2048 2
  shapeCasts_S8x1024x2048_S8192x2048 : S8x1024x2048.ShapeCasts S8192x2048
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S97_S1x97_1 : S97.BroadcastsInDim S1x97 (![1] : Fin 1 → Fin S1x97.rank)
  bcast_S1x97_S8192x97_0_1 : S1x97.BroadcastsInDim S8192x97 (![0, 1] : Fin 2 → Fin S8192x97.rank)
  gather_S8x32x4_S8x1024x4x1_S8x1024x4_n_1_02_02_1_3_111_wf : GatherDims.WF S8x32x4 S8x1024x4x1 S8x1024x4 [] [1] [0, 2] [1] [0, 2] 3 ![1, 1, 1]
  gather_S8x2048x1024_S8x4096x1_S8x4096x1024_2_1_0_0_1_2_111024_wf : GatherDims.WF S8x2048x1024 S8x4096x1 S8x4096x1024 [2] [1] [0] [1] [0] 2 ![1, 1, 1024]
  dot_S8192x2048_S2048x1024_S8192x1024_1_0_0_1_n_n_wf : DotDims.WF S8192x2048 S2048x1024 S8192x1024 [1] [0] [0] [1] [] []
  dot_S8192x1024_S1024x97_S8192x97_1_0_0_1_n_n_wf : DotDims.WF S8192x1024 S1024x97 S8192x97 [1] [0] [0] [1] [] []

variable [Facts₀]

def gather_S8x32x4_S8x1024x4x1_S8x1024x4_n_1_02_02_1_3_111 : GatherDims S8x32x4 S8x1024x4x1 S8x1024x4 where
  offsetDims := []
  collapsedSliceDims := [1]
  operandBatchingDims := [0, 2]
  startIndicesBatchingDims := [0, 2]
  startIndexMap := [1]
  indexVectorDim := 3
  sliceSizes := ![1, 1, 1]
  wf := gather_S8x32x4_S8x1024x4x1_S8x1024x4_n_1_02_02_1_3_111_wf
def gather_S8x2048x1024_S8x4096x1_S8x4096x1024_2_1_0_0_1_2_111024 : GatherDims S8x2048x1024 S8x4096x1 S8x4096x1024 where
  offsetDims := [2]
  collapsedSliceDims := [1]
  operandBatchingDims := [0]
  startIndicesBatchingDims := [0]
  startIndexMap := [1]
  indexVectorDim := 2
  sliceSizes := ![1, 1, 1024]
  wf := gather_S8x2048x1024_S8x4096x1_S8x4096x1024_2_1_0_0_1_2_111024_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x97_S8192x97_1_0_0_1_n_n : DotDims S8192x1024 S1024x97 S8192x97 where
  lhsContracting := [1]
  rhsContracting := [0]
  lhsNonContracting := [0]
  rhsNonContracting := [1]
  lhsBatch := []
  rhsBatch := []
  wf := dot_S8192x1024_S1024x97_S8192x97_1_0_0_1_n_n_wf

class Facts : Prop extends Facts₀ where

variable [Facts]
-- ==== Proof.Spec.lean ====
/-
  The specification shared by the two sides of the bridge.

  The program classifies entity pairs.  For batch `b` and entity `e` the mentions `m = 0..3` sit at token
  positions `pos b e m`; the entity's representation is the sum of the hidden rows at those positions.  Pair `p`
  of batch `b` names a head and a tail entity (`ent b p 0`, `ent b p 1`); the two representations are
  concatenated, sent through a dense layer `dw, db` and an output layer `ow, ob`.

  `RSpec` is that computation as the reference arranges it: gather, sum over mentions, concatenate, two matrix products.
  `KSpec` is the kernel's arrangement: the two layers are folded into `wc s = dw[s-th half] · ow` and
  `bc = db · ow + ob` first, the mention gather is a product with a count matrix, and the head / tail selection a
  product with a one-hot matrix applied after the projection.  Over finite reals the two agree (module Algebra).
-/
import Idealize.ShloMosaic.PureOps.Ideal
import Idealize.ShloMosaic.Lib.ValueIdx

noncomputable section

open scoped BigOperators

namespace Cert.Bridge

open Idealize.ShloMosaic Idealize.ShloMosaic.ValueIdx

abbrev SHs : Shape := ⟨3, ![8, 2048, 1024]⟩
abbrev SDw : Shape := ⟨2, ![2048, 1024]⟩
abbrev SDb : Shape := ⟨1, ![1024]⟩
abbrev SOw : Shape := ⟨2, ![1024, 97]⟩
abbrev SOb : Shape := ⟨1, ![97]⟩
abbrev SEpi : Shape := ⟨3, ![8, 32, 4]⟩
abbrev SHti : Shape := ⟨3, ![8, 1024, 2]⟩
abbrev SOut : Shape := ⟨2, ![8192, 97]⟩

/-- The seven argument arrays, at the ideal instance. -/
structure Args where
  hs : FVec Ideal SHs .f32
  dw : FVec Ideal SDw .f32
  db : FVec Ideal SDb .f32
  ow : FVec Ideal SOw .f32
  ob : FVec Ideal SOb .f32
  epi : IVec SEpi 32
  hti : IVec SHti 32

variable (A : Args)

/-- Every float entry is a real number. -/
structure Finite : Prop where
  hs : ∀ i, ∃ r : ℝ, A.hs i = (r : EReal)
  dw : ∀ i, ∃ r : ℝ, A.dw i = (r : EReal)
  db : ∀ i, ∃ r : ℝ, A.db i = (r : EReal)
  ow : ∀ i, ∃ r : ℝ, A.ow i = (r : EReal)
  ob : ∀ i, ∃ r : ℝ, A.ob i = (r : EReal)

/-- Every mention position is a token position and every entity index an entity. -/
structure InRange : Prop where
  epi_lt : ∀ i, (A.epi i).toNat < 2048
  hti_lt : ∀ i, (A.hti i).toNat < 32

/-- Token position of mention `m` of entity `e` in batch `b`. -/
def pos (b : Fin 8) (e : Fin 32) (m : Fin 4) : Fin 2048 := ⟨min (A.epi (ix3 b e m)).toNat 2047, by omega⟩
/-- The entity pair `p` of batch `b` names: `s = 0` its head, `s = 1` its tail. -/
def ent (b : Fin 8) (p : Fin 1024) (s : Fin 2) : Fin 32 := ⟨min (A.hti (ix3 b p s)).toNat 31, by omega⟩

/-- Row `1024 * s + h` of the dense layer's weight: `s = 0` the half that meets the head's representation. -/
def dwRow (s : Fin 2) (h : Fin 1024) : Fin 2048 := ⟨1024 * s.val + h.val, by omega⟩

/-! ## The kernel's arrangement -/

/-- How many mentions of entity `e` sit at token `l`. -/
def cnt (b : Fin 8) (e : Fin 32) (l : Fin 2048) : EReal := ∑ m : Fin 4, if l = pos A b e m then (1 : EReal) else 0
/-- The entity's representation as a product with the count matrix. -/
def rep (b : Fin 8) (e : Fin 32) (h : Fin 1024) : EReal := ∑ l : Fin 2048, cnt A b e l * A.hs (ix3 b l h)
/-- The folded weight: half `s` of the dense layer times the output layer. -/
def wc (s : Fin 2) (h : Fin 1024) (j : Fin 97) : EReal := ∑ k : Fin 1024, A.dw (ix2 (dwRow s h) k) * A.ow (ix2 k j)
/-- The folded bias. -/
def bc (j : Fin 97) : EReal := (∑ k : Fin 1024, A.db (ix1 k) * A.ow (ix2 k j)) + A.ob (ix1 j)
/-- Every entity projected through folded weight `s`. -/
def proj (s : Fin 2) (b : Fin 8) (e : Fin 32) (j : Fin 97) : EReal := ∑ h : Fin 1024, rep A b e h * wc A s h j
/-- The projection of the entity pair `p` names on side `s`, selected by a one-hot row. -/
def sel (s : Fin 2) (b : Fin 8) (p : Fin 1024) (j : Fin 97) : EReal :=
  ∑ e : Fin 32, (if e = ent A b p s then (1 : EReal) else 0) * proj A s b e j
/-- The kernel's logit of pair `p` of batch `b` for label `j`. -/
def kval (b : Fin 8) (p : Fin 1024) (j : Fin 97) : EReal := sel A 0 b p j + sel A 1 b p j + bc A j

/-! ## The reference's arrangement -/

/-- The representation of the entity pair `p` names on side `s`: the hidden rows at its mentions, summed. -/
def gat (s : Fin 2) (b : Fin 8) (p : Fin 1024) (h : Fin 1024) : EReal :=
  ∑ m : Fin 4, A.hs (ix3 b (pos A b (ent A b p s) m) h)
/-- Head and tail representations side by side. -/
def rel (b : Fin 8) (p : Fin 1024) (i : Fin 2048) : EReal :=
  if h : i.val < 1024 then gat A 0 b p ⟨i.val, h⟩ else gat A 1 b p ⟨i.val - 1024, by omega⟩
/-- The dense layer. -/
def inter (b : Fin 8) (p : Fin 1024) (h : Fin 1024) : EReal := (∑ i : Fin 2048, rel A b p i * A.dw (ix2 i h)) + A.db (ix1 h)
/-- The reference's logit. -/
def rval (b : Fin 8) (p : Fin 1024) (j : Fin 97) : EReal := (∑ h : Fin 1024, inter A b p h * A.ow (ix2 h j)) + A.ob (ix1 j)

/-! ## The result array: row `1024 * b + p`, column `j` -/

def outB (i : SOut.Idx) : Fin 8 := ⟨(i 0).val / 1024, by have h : (i 0).val < 8192 := (i 0).isLt; omega⟩
def outP (i : SOut.Idx) : Fin 1024 := ⟨(i 0).val % 1024, by omega⟩
def outJ (i : SOut.Idx) : Fin 97 := ⟨(i 1).val, (i 1).isLt⟩

def KSpec : FVec Ideal SOut .f32 := fun i => kval A (outB i) (outP i) (outJ i)
def RSpec : FVec Ideal SOut .f32 := fun i => rval A (outB i) (outP i) (outJ i)

end Cert.Bridge

end
-- ==== Proof.Pre.lean ====
/-
  What the precondition says of the seven argument arrays: every float entry is a real number, every mention
  position lies in [0, 2048) and every entity index in [0, 32).

  The precondition is a conjunction of seven "for all entries" statements, each a reduction by `and` of an array of
  bits to one bit.  A conjunction of bits that is 1 has every conjunct 1, and a reduction by `and` that is 1 met only
  1s; what remains is one fact per entry: for a float, |x| < +∞ leaves only the real numbers among the extended
  reals; for a 32-bit word, 0 ≤ x and x < k as signed numbers say that x, read as a natural number, is below k.
-/
import proofs.«411475_j52836687675513_2_alg».proof.Pre_finite_inputs
import proofs.«411475_j52836687675513_2_alg».proof.Proof.Spec
import Idealize.ShloMosaic.Lib.ReduceAll
import Idealize.ShloMosaic.Lib.WordArith

noncomputable section

namespace Cert.Bridge

open Idealize.ShloMosaic Idealize.ShloMosaic.ValueIdx

/-- The shape with no axes has exactly one index. -/
local instance scalarIdxSubsingleton : Subsingleton (⟨0, ![]⟩ : Shape).Idx :=
  ⟨fun a b => funext fun d => d.elim0⟩

/-- A bit made from a Boolean is 1 only when the Boolean holds. -/
theorem eq_true_of_ofBool_eq_one {b : Bool} (h : BitVec.ofBool b = 1#1) : b = true := by
  cases b
  · exact absurd h (by decide)
  · rfl

/-- An extended real whose absolute value `max x (-x)` lies strictly below the pattern of +∞ is a real number:
    the pattern denotes `⊤`, and both `⊤` and `⊥` have absolute value `⊤`. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- "All of |x| < +∞" over a float array of any shape: every entry is a real number. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (h : Host.reduce IntOp.andi
          (cmpf .olt (Host.absf x) (broadcastInDim s ![] hb (constant (F := Ideal) ⟨0, ![]⟩ .f32 0x7F800000#32)))
          (constantI ⟨0, ![]⟩ 1 1#1) hr h0 ix0 = 1#1) (i : s.Idx) : ∃ r : ℝ, x i = (r : EReal) :=
  real_of_abs_lt_inf (x i) (Host.reduce_andi_all _ _ hr h0 ix0 h i)

/-- "All of (x ≥ 0 and x < k)", signed, over an array of 32-bit words, for `k` below 2³¹: every entry, read as a
    natural number, is below `k`. -/
theorem range_of_all {s : Shape} {axes : List (Fin s.rank)} (x : IVec s 32) (k : ℕ) (hk : k < 2 ^ 31)
    (hb : (⟨0, ![]⟩ : Shape).BroadcastsInDim s (![] : Fin 0 → Fin s.rank)) (hr : s.ReducesTo axes ⟨0, ![]⟩)
    (h0 : 0 < (⟨0, ![]⟩ : Shape).numel)
    (h : Host.reduce IntOp.andi
          (andi (cmpi .sge x (broadcastInDim s ![] hb (constantI ⟨0, ![]⟩ 32 0#32)))
                (cmpi .slt x (broadcastInDim s ![] hb (constantI ⟨0, ![]⟩ 32 (BitVec.ofNat 32 k)))))
          (constantI ⟨0, ![]⟩ 1 1#1) hr h0 ix0 = 1#1) (i : s.Idx) : (x i).toNat < k := by
  obtain ⟨e1, e2⟩ := IntOp.andi_eq_one.1 (Host.reduce_andi_all _ _ hr h0 ix0 h i)
  have e1' : BitVec.ofBool (BitVec.sle 0#32 (x i)) = 1#1 := e1
  have e2' : BitVec.ofBool (BitVec.slt (x i) (BitVec.ofNat 32 k)) = 1#1 := e2
  exact WordArith.toNat_lt_of_zero_sle_of_slt_ofNat (x i) k hk (eq_true_of_ofBool_eq_one e1')
    (eq_true_of_ofBool_eq_one e2')

/-- The printed precondition, all ones, gives finiteness of the float arrays and the two index ranges. -/
theorem pre_facts [Cert.Pre_finite_inputs.Facts] (A : Args)
    (h : Cert.Pre_finite_inputs.fn (F := Ideal) A.hs A.dw A.db A.ow A.ob A.epi A.hti = (fun _ => 1#1)) :
    Finite A ∧ InRange A := by
  have h0 := congrFun h ix0
  dsimp only [Cert.Pre_finite_inputs.fn, Cert.Pre_finite_inputs.fn_part1, Cert.Pre_finite_inputs.fn_part2] at h0
  obtain ⟨h0, hhti⟩ := IntOp.andi_eq_one.1 h0
  obtain ⟨h0, hepi⟩ := IntOp.andi_eq_one.1 h0
  obtain ⟨h0, hob⟩ := IntOp.andi_eq_one.1 h0
  obtain ⟨h0, how⟩ := IntOp.andi_eq_one.1 h0
  obtain ⟨h0, hdb⟩ := IntOp.andi_eq_one.1 h0
  obtain ⟨hhs, hdw⟩ := IntOp.andi_eq_one.1 h0
  exact ⟨⟨finite_of_all A.hs _ _ _ hhs, finite_of_all A.dw _ _ _ hdw, finite_of_all A.db _ _ _ hdb,
      finite_of_all A.ow _ _ _ how, finite_of_all A.ob _ _ _ hob⟩,
    ⟨range_of_all A.epi 2048 (by norm_num) _ _ _ hepi, range_of_all A.hti 32 (by norm_num) _ _ _ hhti⟩⟩

end Cert.Bridge

end
-- ==== Proof.Algebra.lean ====
/-
  The kernel's arrangement and the reference's compute the same logits over finite reals.

  Addition and multiplication of extended reals do not distribute in general, so the argument runs over the
  reals: every entry of the float arguments is the coercion of a real number, every stage of either arrangement
  is then the coercion of the same stage computed over the reals, and over the reals the two arrangements agree by
  distributivity and exchanging finite sums.
-/
import proofs.«411475_j52836687675513_2_alg».proof.Proof.Spec

noncomputable section

open scoped BigOperators

namespace Cert.Bridge

open Idealize.ShloMosaic Idealize.ShloMosaic.ValueIdx

/-! ## Generalities -/

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the 2048 rows is the sum over the first half plus the sum over the second half. -/
private theorem sum_halves {M : Type} [AddCommMonoid M] (f : Fin 2048 → M) :
    ∑ i : Fin 2048, f i = ∑ h : Fin 1024, f (dwRow 0 h) + ∑ h : Fin 1024, f (dwRow 1 h) := by
  refine (Fin.sum_univ_add (a := 1024) (b := 1024) f).trans ?_
  congr 1 <;> refine Finset.sum_congr rfl fun h _ => congrArg f (Fin.ext ?_) <;> simp [dwRow]

/-- Exchanging two finite sums around a product. -/
private theorem sum_mul_sum_comm {α β : Type} [Fintype α] [Fintype β] (G : α → ℝ) (D : α → β → ℝ) (w : β → ℝ) :
    ∑ h, G h * ∑ k, D h k * w k = ∑ k, (∑ h, G h * D h k) * w k := by
  simp only [Finset.mul_sum, Finset.sum_mul]
  rw [Finset.sum_comm]
  refine Finset.sum_congr rfl fun k _ => Finset.sum_congr rfl fun h _ => ?_
  ring

/-! ## The two arrangements over the reals

  One batch and one label are fixed: hs l h is the hidden row of token l, ow k the label's column of the output
  layer, ob its bias, ps e m the position of mention m of entity e, en s the entity on side s of the pair. -/

section RealSide

variable (hs : Fin 2048 → Fin 1024 → ℝ) (dw : Fin 2048 → Fin 1024 → ℝ) (db : Fin 1024 → ℝ)
  (ow : Fin 1024 → ℝ) (ob : ℝ) (ps : Fin 32 → Fin 4 → Fin 2048) (en : Fin 2 → Fin 32)

private def rcnt (e : Fin 32) (l : Fin 2048) : ℝ := ∑ m : Fin 4, if l = ps e m then (1 : ℝ) else 0
private def rrep (e : Fin 32) (h : Fin 1024) : ℝ := ∑ l : Fin 2048, rcnt ps e l * hs l h
private def rwc (s : Fin 2) (h : Fin 1024) : ℝ := ∑ k : Fin 1024, dw (dwRow s h) k * ow k
private def rbc : ℝ := (∑ k : Fin 1024, db k * ow k) + ob
private def rproj (s : Fin 2) (e : Fin 32) : ℝ := ∑ h : Fin 1024, rrep hs ps e h * rwc dw ow s h
private def rsel (s : Fin 2) : ℝ := ∑ e : Fin 32, (if e = en s then (1 : ℝ) else 0) * rproj hs dw ow ps s e
private def rkval : ℝ := rsel hs dw ow ps en 0 + rsel hs dw ow ps en 1 + rbc db ow ob

private def rgat (s : Fin 2) (h : Fin 1024) : ℝ := ∑ m : Fin 4, hs (ps (en s) m) h
/-- The contribution of side s to the dense layer. -/
private def rhalf (s : Fin 2) (k : Fin 1024) : ℝ := ∑ h : Fin 1024, rgat hs ps en s h * dw (dwRow s h) k
private def rinter (k : Fin 1024) : ℝ := (rhalf hs dw ps en 0 k + rhalf hs dw ps en 1 k) + db k
private def rrval : ℝ := (∑ k : Fin 1024, rinter hs dw db ps en k * ow k) + ob

/-- The count matrix times the hidden rows is the sum of the rows at the mentions. -/
private theorem rrep_eq (e : Fin 32) (h : Fin 1024) : rrep hs ps e h = ∑ m : Fin 4, hs (ps e m) h := by
  unfold rrep rcnt
  simp only [Finset.sum_mul]
  rw [Finset.sum_comm]
  refine Finset.sum_congr rfl fun m _ => ?_
  simp only [ite_mul, one_mul, zero_mul, Finset.sum_ite_eq', Finset.mem_univ, if_true]

/-- The one-hot row selects the projection of the named entity; the folded weight unfolds. -/
private theorem rsel_eq (s : Fin 2) :
    rsel hs dw ow ps en s = ∑ k : Fin 1024, rhalf hs dw ps en s k * ow k := by
  unfold rsel
  simp only [ite_mul, one_mul, zero_mul, Finset.sum_ite_eq', Finset.mem_univ, if_true]
  unfold rproj rwc rhalf
  have hg : ∀ h, rrep hs ps (en s) h = rgat hs ps en s h := fun h => rrep_eq hs ps (en s) h
  simp only [hg]
  exact sum_mul_sum_comm _ _ _

private theorem rkval_eq_rrval : rkval hs dw db ow ob ps en = rrval hs dw db ow ob ps en := by
  unfold rkval rrval rbc rinter
  rw [rsel_eq, rsel_eq]
  simp only [add_mul, Finset.sum_add_distrib]
  ring

end RealSide

/-! ## Every stage is the coercion of its real counterpart -/

/-- Real numbers whose coercions are the entries of the float arguments. -/
private structure Wit (A : Args) where
  hs : SHs.Idx → ℝ
  dw : SDw.Idx → ℝ
  db : SDb.Idx → ℝ
  ow : SOw.Idx → ℝ
  ob : SOb.Idx → ℝ
  hs_eq : ∀ i, A.hs i = (hs i : EReal)
  dw_eq : ∀ i, A.dw i = (dw i : EReal)
  db_eq : ∀ i, A.db i = (db i : EReal)
  ow_eq : ∀ i, A.ow i = (ow i : EReal)
  ob_eq : ∀ i, A.ob i = (ob i : EReal)

private theorem wit_of_finite (A : Args) (hf : Finite A) : Nonempty (Wit A) := by
  choose hs hhs using hf.hs
  choose dw hdw using hf.dw
  choose db hdb using hf.db
  choose ow how using hf.ow
  choose ob hob using hf.ob
  exact ⟨⟨hs, dw, db, ow, ob, hhs, hdw, hdb, how, hob⟩⟩

section Bridge

variable {A : Args} (W : Wit A)

private def hsR (b : Fin 8) : Fin 2048 → Fin 1024 → ℝ := fun l h => W.hs (ix3 b l h)
private def dwR : Fin 2048 → Fin 1024 → ℝ := fun i k => W.dw (ix2 i k)
private def dbR : Fin 1024 → ℝ := fun k => W.db (ix1 k)
private def owR (j : Fin 97) : Fin 1024 → ℝ := fun k => W.ow (ix2 k j)
private def obR (j : Fin 97) : ℝ := W.ob (ix1 j)

private theorem cnt_coe (b : Fin 8) (e : Fin 32) (l : Fin 2048) :
    cnt A b e l = ((rcnt (pos A b) e l : ℝ) : EReal) := by
  unfold cnt rcnt
  rw [coe_sum]
  refine Finset.sum_congr rfl fun m _ => ?_
  split_ifs <;> simp

private theorem rep_coe (b : Fin 8) (e : Fin 32) (h : Fin 1024) :
    rep A b e h = ((rrep (hsR W b) (pos A b) e h : ℝ) : EReal) := by
  unfold rep rrep
  rw [coe_sum]
  refine Finset.sum_congr rfl fun l _ => ?_
  rw [EReal.coe_mul, cnt_coe, W.hs_eq]
  rfl

private theorem wc_coe (s : Fin 2) (h : Fin 1024) (j : Fin 97) :
    wc A s h j = ((rwc (dwR W) (owR W j) s h : ℝ) : EReal) := by
  unfold wc rwc
  rw [coe_sum]
  refine Finset.sum_congr rfl fun k _ => ?_
  rw [EReal.coe_mul, W.dw_eq, W.ow_eq]
  rfl

private theorem bc_coe (j : Fin 97) :
    bc A j = ((rbc (dbR W) (owR W j) (obR W j) : ℝ) : EReal) := by
  unfold bc rbc
  rw [EReal.coe_add, coe_sum, W.ob_eq]
  congr 1
  refine Finset.sum_congr rfl fun k _ => ?_
  rw [EReal.coe_mul, W.db_eq, W.ow_eq]
  rfl

private theorem proj_coe (s : Fin 2) (b : Fin 8) (e : Fin 32) (j : Fin 97) :
    proj A s b e j = ((rproj (hsR W b) (dwR W) (owR W j) (pos A b) s e : ℝ) : EReal) := by
  unfold proj rproj
  rw [coe_sum]
  refine Finset.sum_congr rfl fun h _ => ?_
  rw [EReal.coe_mul, rep_coe W, wc_coe W]

private theorem sel_coe (s : Fin 2) (b : Fin 8) (p : Fin 1024) (j : Fin 97) :
    sel A s b p j = ((rsel (hsR W b) (dwR W) (owR W j) (pos A b) (ent A b p) s : ℝ) : EReal) := by
  unfold sel rsel
  rw [coe_sum]
  refine Finset.sum_congr rfl fun e _ => ?_
  rw [EReal.coe_mul, proj_coe W]
  congr 1
  split_ifs <;> simp

private theorem kval_coe (b : Fin 8) (p : Fin 1024) (j : Fin 97) :
    kval A b p j
      = ((rkval (hsR W b) (dwR W) (dbR W) (owR W j) (obR W j) (pos A b) (ent A b p) : ℝ) : EReal) := by
  unfold kval rkval
  rw [EReal.coe_add, EReal.coe_add, sel_coe W, sel_coe W, bc_coe W]

private theorem gat_coe (s : Fin 2) (b : Fin 8) (p : Fin 1024) (h : Fin 1024) :
    gat A s b p h = ((rgat (hsR W b) (pos A b) (ent A b p) s h : ℝ) : EReal) := by
  unfold gat rgat
  rw [coe_sum]
  refine Finset.sum_congr rfl fun m _ => ?_
  rw [W.hs_eq]
  rfl

/-- The first 1024 entries of the concatenation are the head's representation. -/
private theorem rel_dwRow0 (b : Fin 8) (p : Fin 1024) (h : Fin 1024) :
    rel A b p (dwRow 0 h) = gat A 0 b p h := by
  unfold rel
  have hlt : (dwRow 0 h).val < 1024 := by simp [dwRow]
  rw [dif_pos hlt]
  congr 1
  apply Fin.ext
  simp [dwRow]

/-- The last 1024 entries of the concatenation are the tail's representation. -/
private theorem rel_dwRow1 (b : Fin 8) (p : Fin 1024) (h : Fin 1024) :
    rel A b p (dwRow 1 h) = gat A 1 b p h := by
  unfold rel
  have hge : ¬ (dwRow 1 h).val < 1024 := by simp [dwRow]
  rw [dif_neg hge]
  congr 1
  apply Fin.ext
  simp [dwRow]

private theorem rel_dwRow (s : Fin 2) (b : Fin 8) (p : Fin 1024) (h : Fin 1024) :
    rel A b p (dwRow s h) = gat A s b p h := by
  have hs : s = 0 ∨ s = 1 := by omega
  rcases hs with rfl | rfl
  · exact rel_dwRow0 b p h
  · exact rel_dwRow1 b p h

private theorem half_coe (s : Fin 2) (b : Fin 8) (p : Fin 1024) (k : Fin 1024) :
    ∑ h : Fin 1024, rel A b p (dwRow s h) * A.dw (ix2 (dwRow s h) k)
      = ((rhalf (hsR W b) (dwR W) (pos A b) (ent A b p) s k : ℝ) : EReal) := by
  unfold rhalf
  rw [coe_sum]
  refine Finset.sum_congr rfl fun h _ => ?_
  rw [EReal.coe_mul, rel_dwRow, gat_coe W, W.dw_eq]
  rfl

private theorem inter_coe (b : Fin 8) (p : Fin 1024) (k : Fin 1024) :
    inter A b p k
      = ((rinter (hsR W b) (dwR W) (dbR W) (pos A b) (ent A b p) k : ℝ) : EReal) := by
  unfold inter rinter
  rw [sum_halves, half_coe W, half_coe W, EReal.coe_add, EReal.coe_add, W.db_eq]
  rfl

private theorem rval_coe (b : Fin 8) (p : Fin 1024) (j : Fin 97) :
    rval A b p j
      = ((rrval (hsR W b) (dwR W) (dbR W) (owR W j) (obR W j) (pos A b) (ent A b p) : ℝ) : EReal) := by
  unfold rval rrval
  rw [EReal.coe_add, coe_sum, W.ob_eq]
  congr 1
  refine Finset.sum_congr rfl fun k _ => ?_
  rw [EReal.coe_mul, inter_coe W, W.ow_eq]
  rfl

end Bridge

/-- Folding the two layers, gathering by a count matrix and selecting by a one-hot row change nothing over finite reals. -/
theorem kval_eq_rval (A : Args) (hf : Finite A) (b : Fin 8) (p : Fin 1024) (j : Fin 97) : kval A b p j = rval A b p j := by
  obtain ⟨W⟩ := wit_of_finite A hf
  rw [kval_coe W, rval_coe W, rkval_eq_rrval]

theorem KSpec_eq_RSpec (A : Args) (hf : Finite A) : KSpec A = RSpec A :=
  funext fun i => kval_eq_rval A hf (outB i) (outP i) (outJ i)

end Cert.Bridge

end
-- ==== Proof.LibPlainMatmul.lean ====
/-
  A general lemma: a matrix product `[M, K] × [K, N]` read at an index on the extended reals — the kernel's, into a
  zero accumulator, and the host's `dot_general`.

  The dimension numbers contract axis 1 of the left operand with axis 0 of the right one, keep axis 0 of the left and
  axis 1 of the right, and have no batch axis. Entry `(p, q)` of the product is then `∑ k < K, l[p, k] · r[k, q]`:
  the sum over the one contracted axis, re-indexed by that axis's coordinate. Stated for any record with those
  dimension numbers, whatever the sizes and the operands' float formats.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

/-- Those dimension numbers as a literal record; `wf` are their conditions. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the result's row. -/
theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

/-- The left operand's column is the contracted coordinate. -/
theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

/-- The right operand's row is the contracted coordinate. -/
theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

/-- The right operand's column is the result's column. -/
theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

/-- The product of the literal record at `(p, q)`. -/
theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The host's product of the literal record at `(p, q)`. -/
theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

/-- THE PRODUCT READ AT `(p, q)`, for any record with the plain dimension numbers: `∑ k < K, l[p, k] · r[k, q]`. -/
theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

/-- THE HOST'S PRODUCT READ AT `(p, q)`, for any record with the plain dimension numbers, whatever its schedule key:
    the same sum. -/
theorem dotGeneral_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, l (ix2 p k) * r (ix2 k q) := by
  obtain ⟨lc, rc, ln, rn, lb, rb, wf⟩ := d
  simp only at h1 h2 h3 h4 h5 h6
  subst h1 h2 h3 h4 h5 h6
  exact dotGeneral_plainDims_apply wf prec sched l r p q

end Cert.Lib

end
-- ==== Proof.LibKeepdimsColumn.lean ====
/-
  Two layout operations read at an index given by coordinates: the column forms a row reduction with kept dimensions
  meets. A row's maximum or sum comes out as a vector of length `a`; it is cast to an `[a, 1]` column and the column is
  broadcast along the rows of an `[a, b]` array. Read at `(i, u)` the cast is the vector at `i`; read at `(p, c)` the
  broadcast is the column's entry of row `p`. Both hold for any sizes and any element type.
-/
import Idealize.ShloMosaic.Lib.Pipeline.Value
import Idealize.ShloMosaic.Lib.ValueIdx

namespace Cert.LibKeepdimsColumn

open Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsColumn
-- ==== Proof.KBody.lean ====
/-
  The kernel body's one store, read at an index of the output block, at the ideal instance: the one-hot selection of
  the projected entity representations plus the folded bias.

  The body computes in two parts. The first builds, for the batch's 32 entities, a 32 x 2048 count matrix: each of the
  four mention positions of an entity, clamped to [0, 2047], is compared with a running token counter, and the four
  resulting one-hot rows are added; a position already in range is its own clamp, so entry (e, l) is the number of
  mentions of entity e that sit at token l. The count matrix times the hidden states gives every entity's
  representation. The second part multiplies the representations by each folded weight, builds from the head row and
  the tail row of the entity indices two 1024 x 32 one-hot matrices (entry (p, e) is 1 exactly when pair p names
  entity e), multiplies each with its projection, adds the two products and adds the folded bias along the rows.
  A change of float format is the identity on the extended reals, and a product into a zero accumulator is the plain
  sum over the contracted axis, so the stored entry is the double selection stated below.
-/
import proofs.«411475_j52836687675513_2_alg».proof.Proof.Gen.KernelIdeal.Skeleton
import proofs.«411475_j52836687675513_2_alg».proof.Proof.Spec
import proofs.«411475_j52836687675513_2_alg».proof.Proof.LibPlainMatmul
import proofs.«411475_j52836687675513_2_alg».proof.Proof.LibKeepdimsColumn
import Idealize.ShloMosaic.PureOps.Ideal.Laws
import Idealize.ShloMosaic.Lib.Pipeline.Value
import Idealize.ShloMosaic.Lib.ValueLayout
import Idealize.ShloMosaic.Lib.StableHlo.Predicate

noncomputable section

open scoped BigOperators

namespace Cert.Bridge

open Idealize.ShloMosaic Idealize.ShloMosaic.ValueIdx Cert.KernelIdeal Cert.KernelIdeal.Gen

namespace KBody

open Idealize.ShloMosaic.StableHlo.Predicate Cert.Lib Cert.LibKeepdimsColumn

/-! ## Words -/

/-- A word already in [0, 2047] is its own signed clamp to that range. -/
theorem clamp_pos (w : BitVec 32) (hw : w.toNat < 2048) : IntOp.minsi 2047#32 (IntOp.maxsi 0#32 w) = w := by
  have hti : w.toInt = w.toNat := toInt_eq_toNat_of_lt (by omega)
  have h0 : (0#32 : BitVec 32).toInt = 0 := by decide
  have h2047 : (2047#32 : BitVec 32).toInt = 2047 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, h2047, decide_eq_true_eq]; omega

/-- The bit "the counter n equals the word w", widened and converted, is 1 or 0 as an extended real. -/
theorem onehot_bit (n : Nat) (hn : n < 2 ^ 32) (w : BitVec 32) :
    FloatOps.sitofp (F := Ideal) .f32 ((IntOp.cmpi .eq (BitVec.ofNat 32 n) w).setWidth 32)
      = if n = w.toNat then (1 : EReal) else 0 := by
  show (((((IntOp.cmpi .eq (BitVec.ofNat 32 n) w).setWidth 32).toInt : ℝ)) : EReal) = _
  by_cases h : n = w.toNat
  · have hb : IntOp.cmpi .eq (BitVec.ofNat 32 n) w = 1#1 :=
      cmpi_eq_iff.mpr (by
        subst h
        apply BitVec.eq_of_toNat_eq
        rw [BitVec.toNat_ofNat]
        exact Nat.mod_eq_of_lt w.isLt)
    rw [hb, if_pos h]
    norm_num
  · have hb : IntOp.cmpi .eq (BitVec.ofNat 32 n) w = 0#1 :=
      eq_zero_of_ne_one (fun hc => h (by
        have := congrArg BitVec.toNat (cmpi_eq_iff.mp hc)
        rw [BitVec.toNat_ofNat, Nat.mod_eq_of_lt hn] at this
        exact this))
    rw [hb, if_neg h]
    norm_num

/-- The bf16 zero word is the extended real 0. -/
theorem ofBits_zero_bf16 : Ideal.ofBits .bf16 0x0000#16 = 0 := by simp [Ideal.ofBits, Ideal.ieee]

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## The one-hot matrices -/

/-- One column `o` of the clamped positions, as a one-hot row per entity: entry `(e, l)` is 1 when token `l` is that
    position and 0 otherwise. -/
theorem col_onehot (v5 : IVec S32x4 32) (o : Nat) (hs : S32x4.Slices ![0, o] S32x1) (m : Fin 4) (hm : m.val = o)
    (h1 : S32x1.ShapeCasts S32) (h2 : S32.ShapeCasts S32x1) (h3 : S32x1.Broadcasts S32x2048)
    (h4 : S32x2048.Iotas .tc 32 [1]) (h5 : 1 < 32) (h6 : FTy.bits .bf16 < FTy.bits .f32) (e : Fin 32) (l : Fin 2048) :
    (truncf .bf16 (sitofp (F := Ideal) .f32 (extui 32 (cmpi .eq (iota .tc S32x2048 32 [1] h4)
        (broadcastTo S32x2048 (shapeCast S32x1 (shapeCast S32 (extractStridedSlice S32x1 ![0, o] v5 hs) h1) h2) h3)) h5)) h6
          : FVec Ideal S32x2048 .bf16) (ix2 e l)
      = if l.val = (v5 (ix2 e m)).toNat then (1 : EReal) else 0 := by
  show FloatOps.sitofp (F := Ideal) .f32 ((IntOp.cmpi .eq (iota .tc S32x2048 32 [1] h4 (ix2 e l))
      (broadcastTo S32x2048 (shapeCast S32x1 (shapeCast S32 (extractStridedSlice S32x1 ![0, o] v5 hs) h1) h2) h3 (ix2 e l))).setWidth 32) = _
  rw [iota_single_apply, broadcastTo_a1_ab_apply, shapeCast_a_a1_apply, shapeCast_a1_a_apply,
    slice2_axis1_apply o v5 hs e (0 : Fin 1) m (by show m.val = o + 0; omega)]
  exact onehot_bit l.val (by have := l.isLt; omega) _

/-- One row `o` of the entity indices, as a one-hot column per pair: entry `(p, e)` is 1 when entity `e` is the one
    pair `p` names in that row and 0 otherwise. -/
theorem row_onehot (v58 : IVec S2x1024 32) (o : Nat) (hs : S2x1024.Slices ![o, 0] S1x1024) (s : Fin 2) (hso : s.val = o)
    (h1 : S1x1024.ShapeCasts S1024) (h2 : S1024.ShapeCasts S1024x1) (h3 : S1024x1.Broadcasts S1024x32)
    (h4 : S1024x32.Iotas .tc 32 [1]) (h5 : 1 < 32) (h6 : FTy.bits .bf16 < FTy.bits .f32) (p : Fin 1024) (e : Fin 32) :
    (truncf .bf16 (sitofp (F := Ideal) .f32 (extui 32 (cmpi .eq (iota .tc S1024x32 32 [1] h4)
        (broadcastTo S1024x32 (shapeCast S1024x1 (shapeCast S1024 (extractStridedSlice S1x1024 ![o, 0] v58 hs) h1) h2) h3)) h5)) h6
          : FVec Ideal S1024x32 .bf16) (ix2 p e)
      = if e.val = (v58 (ix2 s p)).toNat then (1 : EReal) else 0 := by
  show FloatOps.sitofp (F := Ideal) .f32 ((IntOp.cmpi .eq (iota .tc S1024x32 32 [1] h4 (ix2 p e))
      (broadcastTo S1024x32 (shapeCast S1024x1 (shapeCast S1024 (extractStridedSlice S1x1024 ![o, 0] v58 hs) h1) h2) h3 (ix2 p e))).setWidth 32) = _
  rw [iota_single_apply, broadcastTo_a1_ab_apply, shapeCast_a_a1_apply, shapeCast_1a_a_apply,
    slice2_axis0_apply o v58 hs (0 : Fin 1) p s (by show s.val = o + 0; omega)]
  exact onehot_bit e.val (by have := e.isLt; omega) _

/-! ## The two parts of the body at an index -/

/-- The entity representations the first part computes: entry `(e, h)` is the count matrix's row `e` times column `h` of
    the hidden states. The clamp of a position already in range is the position itself. -/
theorem pay2_apply (x1 : Vec Ideal S1x32x4 .i32) (x0 : Vec Ideal S1x2048x1024 .f32)
    (hx1 : ∀ i, (x1 i : BitVec 32).toNat < 2048) (e : Fin 32) (h : Fin 1024) :
    k0_pay2 (F := Ideal) x1 x0 (ix2 e h)
      = ∑ l : Fin 2048, (∑ m : Fin 4, if l.val = (x1 (ix3 (0 : Fin 1) e m) : BitVec 32).toNat then (1 : EReal) else 0)
          * (x0 (ix3 (0 : Fin 1) l h) : EReal) := by
  have hclamp : ∀ m : Fin 4, (minsi (broadcast S32x4 2047#32) (maxsi (broadcast S32x4 0#32)
      (shapeCast S32x4 x1 shapeCasts_S1x32x4_S32x4)) : IVec S32x4 32) (ix2 e m) = x1 (ix3 (0 : Fin 1) e m) := fun m => by
    show IntOp.minsi 2047#32 (IntOp.maxsi 0#32 (shapeCast S32x4 x1 shapeCasts_S1x32x4_S32x4 (ix2 e m))) = _
    rw [shapeCast_1ab_ab_apply]
    exact clamp_pos _ (hx1 _)
  unfold k0_pay2
  refine (truncf_apply (ψ := .bf16) (φ := .f32) _ bitsLt_bf16_f32 (ix2 e h)).trans ?_
  refine (matmul_plain_apply dot_S32x2048_S2048x1024_S32x1024_1_0_0_1_n_n rfl rfl rfl rfl rfl rfl none _ _ e h).trans ?_
  refine Finset.sum_congr rfl fun l _ => ?_
  refine congr (congrArg _ ?_) ?_
  · rw [Fin.sum_univ_four]
    simp only [addf_apply, broadcast_apply]
    rw [col_onehot _ 0 _ 0 rfl, col_onehot _ 1 _ 1 rfl, col_onehot _ 2 _ 2 rfl, col_onehot _ 3 _ 3 rfl,
      hclamp 0, hclamp 1, hclamp 2, hclamp 3]
    show Ideal.ofBits .bf16 0x0000#16 + _ + _ + _ + _ = _
    rw [ofBits_zero_bf16, zero_add]
  · refine (truncf_apply (ψ := .bf16) (φ := .f32) _ bitsLt_bf16_f32 (ix2 l h)).trans ?_
    exact shapeCast_1ab_ab_apply x0 _ l h

/-- The block the body stores, over the first part's result `v48`: entry `(0, p, j)` is the head's one-hot row times the
    representations projected through the first folded weight, plus the tail's through the second, plus the folded bias. -/
theorem pay1_apply (v48 : FVec Ideal S32x1024 .bf16) (x3 x4 : Vec Ideal S1024x128 .bf16) (x2 : Vec Ideal S1x2x1024 .i32)
    (x5 : Vec Ideal S128 .f32) (p : Fin 1024) (j : Fin 128) :
    k0_pay1 (F := Ideal) v48 x3 x4 x2 x5 (ix3 (0 : Fin 1) p j)
      = (∑ e : Fin 32, (if e.val = (x2 (ix3 (0 : Fin 1) (0 : Fin 2) p) : BitVec 32).toNat then (1 : EReal) else 0)
            * ∑ h : Fin 1024, (v48 (ix2 e h) : EReal) * (x3 (ix2 h j) : EReal))
        + (∑ e : Fin 32, (if e.val = (x2 (ix3 (0 : Fin 1) (1 : Fin 2) p) : BitVec 32).toNat then (1 : EReal) else 0)
            * ∑ h : Fin 1024, (v48 (ix2 e h) : EReal) * (x4 (ix2 h j) : EReal))
        + (x5 (ix1 j) : EReal) := by
  have hrow : ∀ s : Fin 2, (shapeCast S2x1024 x2 shapeCasts_S1x2x1024_S2x1024 : IVec S2x1024 32) (ix2 s p)
      = x2 (ix3 (0 : Fin 1) s p) := fun s => shapeCast_1ab_ab_apply x2 _ s p
  unfold k0_pay1
  refine (shapeCast_ab_1ab_apply _ _ (0 : Fin 1) p j).trans ?_
  refine (addf_apply _ _ _).trans ?_
  refine congr (congrArg _ ((addf_apply _ _ _).trans (congr (congrArg _ ?_) ?_))) ?_
  · -- the head's side
    refine (matmul_plain_apply dot_S1024x32_S32x128_S1024x128_1_0_0_1_n_n rfl rfl rfl rfl rfl rfl none _ _ p j).trans ?_
    refine Finset.sum_congr rfl fun e _ => ?_
    refine congr (congrArg _ ?_) ?_
    · rw [row_onehot _ 0 _ 0 rfl, hrow 0]
    · refine (truncf_apply (ψ := .bf16) (φ := .f32) _ bitsLt_bf16_f32 (ix2 e j)).trans ?_
      refine (matmul_plain_apply dot_S32x1024_S1024x128_S32x128_1_0_0_1_n_n rfl rfl rfl rfl rfl rfl none _ _ e j).trans ?_
      rw [shapeCast_self]
  · -- the tail's side
    refine (matmul_plain_apply dot_S1024x32_S32x128_S1024x128_1_0_0_1_n_n rfl rfl rfl rfl rfl rfl none _ _ p j).trans ?_
    refine Finset.sum_congr rfl fun e _ => ?_
    refine congr (congrArg _ ?_) ?_
    · rw [row_onehot _ 1 _ 1 rfl, hrow 1]
    · refine (truncf_apply (ψ := .bf16) (φ := .f32) _ bitsLt_bf16_f32 (ix2 e j)).trans ?_
      refine (matmul_plain_apply dot_S32x1024_S1024x128_S32x128_1_0_0_1_n_n rfl rfl rfl rfl rfl rfl none _ _ e j).trans ?_
      rw [shapeCast_self]
  · -- the bias row
    rw [broadcastTo_1b_ab_apply, shapeCast_a_1a_apply, shapeCast_self]

end KBody

open KBody in
/-- Entry (0, p, j) of the block the body stores, from the blocks it loads: `x0` the batch's hidden states, `x1` its
    mention positions, `x2` its head (row 0) and tail (row 1) entity indices, `x3`, `x4` the folded weights, `x5` the
    folded bias. The positions and entity indices are in range. -/
theorem body_apply (x0 : Vec Ideal S1x2048x1024 .f32) (x1 : Vec Ideal S1x32x4 .i32) (x2 : Vec Ideal S1x2x1024 .i32)
    (x3 : Vec Ideal S1024x128 .bf16) (x4 : Vec Ideal S1024x128 .bf16) (x5 : Vec Ideal S128 .f32)
    (hx1 : ∀ i, (x1 i : BitVec 32).toNat < 2048) (hx2 : ∀ i, (x2 i : BitVec 32).toNat < 32)
    (p : Fin 1024) (j : Fin 128) :
    k0_pay1 (F := Ideal) (k0_pay2 (F := Ideal) x1 x0) x3 x4 x2 x5 (ix3 (0 : Fin 1) p j)
      = (∑ e : Fin 32, (if e.val = (x2 (ix3 (0 : Fin 1) (0 : Fin 2) p) : BitVec 32).toNat then (1 : EReal) else 0)
            * ∑ h : Fin 1024, (∑ l : Fin 2048, (∑ m : Fin 4, if l.val = (x1 (ix3 (0 : Fin 1) e m) : BitVec 32).toNat then (1 : EReal) else 0)
                * (x0 (ix3 (0 : Fin 1) l h) : EReal)) * (x3 (ix2 h j) : EReal))
        + (∑ e : Fin 32, (if e.val = (x2 (ix3 (0 : Fin 1) (1 : Fin 2) p) : BitVec 32).toNat then (1 : EReal) else 0)
            * ∑ h : Fin 1024, (∑ l : Fin 2048, (∑ m : Fin 4, if l.val = (x1 (ix3 (0 : Fin 1) e m) : BitVec 32).toNat then (1 : EReal) else 0)
                * (x0 (ix3 (0 : Fin 1) l h) : EReal)) * (x4 (ix2 h j) : EReal))
        + (x5 (ix1 j) : EReal) := by
  rw [pay1_apply]
  simp only [pay2_apply x1 x0 hx1]

end Cert.Bridge

end
-- ==== Proof.KArgs.lean ====
/-
  The kernel program's seven argument arrays on a core, gathered as the specification's arguments.
-/
import proofs.«411475_j52836687675513_2_alg».proof.KernelIdeal
import proofs.«411475_j52836687675513_2_alg».proof.Proof.Spec

noncomputable section

namespace Cert.Bridge

open Idealize.ShloMosaic Idealize.ShloMosaic.TcCoe Idealize.SL.Sem Cert.KernelIdeal

/-- Core `c`'s argument arrays in the memory `m`. -/
def kargs (m : (ℓ : Loc nD τ sig) → Buf (Elt Ideal) ℓ) (c : Dev nD) : Args where
  hs := m ((c : Thread nD τ).loc main_arg0)
  dw := m ((c : Thread nD τ).loc main_arg1)
  db := m ((c : Thread nD τ).loc main_arg2)
  ow := m ((c : Thread nD τ).loc main_arg3)
  ob := m ((c : Thread nD τ).loc main_arg4)
  epi := m ((c : Thread nD τ).loc main_arg5)
  hti := m ((c : Thread nD τ).loc main_arg6)

end Cert.Bridge

end
-- ==== Proof.KHostScatter.lean ====
/-
  A scatter whose body returns the update (`x.at[...].set(v)`) is a left fold of pointwise overwrites over the
  update's indices.  When every update index lands inside the operand, at a place given by an injective map `e`,
  the result read at `e j` is the update's element `j`: the step of `j` writes it, and no later step writes there again.
-/
import Idealize.ShloMosaic.PureOps.ShapeOps

namespace Cert.Bridge

open Idealize.ShloMosaic

/-- A left fold of steps each of which leaves every place but `g n` alone, read at a place no step of the list
    writes: the start value. -/
theorem foldl_set_miss {κ ι α : Type} (g : κ → ι) (step : (ι → α) → κ → (ι → α))
    (hmiss : ∀ r n i', i' ≠ g n → step r n i' = r i') (i : ι) :
    ∀ (L : List κ) (x : ι → α), (∀ n ∈ L, g n ≠ i) → (L.foldl step x) i = x i
  | [], _, _ => rfl
  | a :: L, x, h => by
    rw [List.foldl_cons, foldl_set_miss g step hmiss i L (step x a) (fun n hn => h n (List.mem_cons_of_mem _ hn))]
    exact hmiss x a i (h a List.mem_cons_self).symm

/-- A left fold of steps, step `n` writing `v n` at the place `g n` and nothing else, over a list without repeats and
    with `g` injective: at the place of a member `n0` it holds `v n0`. -/
theorem foldl_set_hit {κ ι α : Type} (g : κ → ι) (hg : Function.Injective g) (v : κ → α)
    (step : (ι → α) → κ → (ι → α)) (hhit : ∀ r n, step r n (g n) = v n)
    (hmiss : ∀ r n i', i' ≠ g n → step r n i' = r i') (n0 : κ) :
    ∀ (L : List κ) (x : ι → α), L.Nodup → n0 ∈ L → (L.foldl step x) (g n0) = v n0
  | [], _, _, h => absurd h List.not_mem_nil
  | a :: L, x, hnd, h => by
    rw [List.foldl_cons]
    rcases List.mem_cons.1 h with rfl | hin
    · rw [foldl_set_miss g step hmiss (g n0) L (step x n0)
        (fun n hn e => (List.nodup_cons.1 hnd).1 (hg e ▸ hn))]
      exact hhit x n0
    · exact foldl_set_hit g hg v step hhit hmiss n0 L (step x a) (List.nodup_cons.1 hnd).2 hin

/-- An update index whose start plus window coordinate is `i`'s coordinate on every axis lands at `i`. -/
theorem resultIdx?_eq_some {s si u : Shape} {w : Nat} (d : ScatterDims s si u) (j : u.Idx) (idx : IVec si w) (i : s.Idx)
    (h : ∀ a, d.start j idx a + (d.window j a : Int) = ((i a).val : Int)) : d.resultIdx? j idx = some i := by
  unfold ScatterDims.resultIdx?
  have hh : ∀ a, 0 ≤ d.start j idx a + (d.window j a : Int) ∧ d.start j idx a + (d.window j a : Int) < s.size a :=
    fun a => by
      rw [h a]
      exact ⟨Int.natCast_nonneg _, Int.ofNat_lt.2 (i a).isLt⟩
  rw [dif_pos hh]
  refine congrArg some (funext fun a => Fin.ext ?_)
  show (d.start j idx a + (d.window j a : Int)).toNat = (i a).val
  rw [h a, Int.toNat_natCast]

/-- A scatter that sets: when update index `j` lands at `e j` for an injective `e`, the result at `e j` is the
    update's element `j`. -/
theorem scatter_set_apply {s si u : Shape} {w : Nat} {α : Type} (d : ScatterDims s si u)
    (x : s.Idx → α) (idx : IVec si w) (upd : u.Idx → α) (e : u.Idx → s.Idx) (he : Function.Injective e)
    (hr : ∀ j, d.resultIdx? j idx = some (e j)) (j : u.Idx) :
    Host.scatter d (fun _ b => b) x idx upd (e j) = upd j := by
  obtain ⟨n0, rfl⟩ : ∃ n0, j = u.rowMajor.symm n0 := ⟨u.rowMajor j, (Equiv.symm_apply_apply _ _).symm⟩
  unfold Host.scatter
  exact foldl_set_hit (fun n => e (u.rowMajor.symm n)) (he.comp u.rowMajor.symm.injective)
    (fun n => upd (u.rowMajor.symm n)) _
    (fun r n => by simp only [hr]; exact if_pos trivial)
    (fun r n i' hne => by simp only [hr]; exact if_neg hne)
    n0 (List.finRange u.numel) x (List.nodup_finRange _) (List.mem_finRange _)

end Cert.Bridge
-- ==== Proof.KHost.lean ====
/-
  What the host operations before the region leave in the arrays the region's windows 2 to 5 stage: the entity-pair
  indices transposed, the two folded weights and the folded bias, each read at an index.

  The output layer's weight `ow` ([1024, 97]) and bias `ob` ([97]) are first set into 128 columns of zeros by a scatter
  at the start index 0; a column below 97 of the padded array is the column of the original.  Each folded weight is then
  one half of the dense layer's weight times the padded `ow`, and the folded bias is the dense bias times the padded
  `ow` plus the padded `ob`: at a column below 97 these are the specification's `wc` and `bc`.
-/
import proofs.«411475_j52836687675513_2_alg».proof.Proof.Gen.KernelIdeal.Frame
import proofs.«411475_j52836687675513_2_alg».proof.Proof.KArgs
import proofs.«411475_j52836687675513_2_alg».proof.Proof.KHostScatter
import proofs.«411475_j52836687675513_2_alg».proof.Proof.LibPlainMatmul
import Idealize.ShloMosaic.PureOps.Ideal.Laws
import Idealize.ShloMosaic.Lib.Pipeline.Value
import Idealize.ShloMosaic.Lib.ValueLayout
import Idealize.ShloMosaic.Lib.StableHlo.Run

noncomputable section

open scoped BigOperators

namespace Cert.Bridge

open Idealize.ShloMosaic Idealize.ShloMosaic.TcCoe Idealize.SL.Sem Idealize.ShloMosaic.ValueIdx Cert.KernelIdeal Cert.KernelIdeal.Gen

/-- Contents carried to a buffer's own type and back are the contents. -/
theorem ofBuf_toBuf {sig : RefSig} {T : BufTy} {Val : EltTy → Type} (x : StableHlo.TRef sig T) (v : T.Contents Val) :
    x.ofBuf (x.toBuf v) = v := by
  obtain ⟨r, h, h2, h3⟩ := x
  subst h
  rfl

/-! ## The two pads -/

/-- The scatter indices of both pads: one start index, the word 0. -/
abbrev padIdx : IVec S1 32 := broadcastInDim S1 ![] Facts₀.bcast_S_S1 (constantI S_ 32 0#32)

theorem padIdx_apply (k : S1.Idx) : padIdx k = 0#32 := rfl

/-! ### The weight: [1024, 97] into [1024, 128] -/

/-- Where element `(k, j)` of the update lands: at `(k, j)`. -/
def emb2 (j : S1024x97.Idx) : S1024x128.Idx :=
  ix2 (⟨(j 0).val, (j 0).isLt⟩ : Fin 1024) (⟨(j 1).val, Nat.lt_trans (j 1).isLt (by decide)⟩ : Fin 128)

theorem emb2_inj : Function.Injective emb2 := fun j j' h => funext fun a => match a with
  | ⟨0, _⟩ => Fin.ext (congrArg (fun i : S1024x128.Idx => (i 0).val) h)
  | ⟨1, _⟩ => Fin.ext (congrArg (fun i : S1024x128.Idx => (i 1).val) h)

theorem pad2_start_0 (j : S1024x97.Idx) (idx : IVec S1 32) :
    scatter_S1024x128_S1_S1024x97_01_n_1_0.start j idx 0 = 0 := by
  unfold ScatterDims.start
  rw [dif_neg (show ¬(0 : Fin S1024x128.rank) ∈ scatter_S1024x128_S1_S1024x97_01_n_1_0.scatterDimsToOperandDims by decide)]

theorem pad2_start_1 (j : S1024x97.Idx) (idx : IVec S1 32) (h0 : ∀ k, idx k = 0#32) :
    scatter_S1024x128_S1_S1024x97_01_n_1_0.start j idx 1 = 0 := by
  unfold ScatterDims.start
  rw [dif_pos (show (1 : Fin S1024x128.rank) ∈ scatter_S1024x128_S1_S1024x97_01_n_1_0.scatterDimsToOperandDims by decide), h0]
  rfl

theorem pad2_window_0 (j : S1024x97.Idx) :
    scatter_S1024x128_S1_S1024x97_01_n_1_0.window j 0 = (j 0).val := by
  unfold ScatterDims.window
  rw [dif_pos (show (0 : Fin S1024x128.rank) ∈ scatter_S1024x128_S1_S1024x97_01_n_1_0.sKept by decide)]
  rfl

theorem pad2_window_1 (j : S1024x97.Idx) :
    scatter_S1024x128_S1_S1024x97_01_n_1_0.window j 1 = (j 1).val := by
  unfold ScatterDims.window
  rw [dif_pos (show (1 : Fin S1024x128.rank) ∈ scatter_S1024x128_S1_S1024x97_01_n_1_0.sKept by decide)]
  rfl

theorem pad2_sw_0 (j : S1024x97.Idx) (idx : IVec S1 32) :
    scatter_S1024x128_S1_S1024x97_01_n_1_0.start j idx 0 + (scatter_S1024x128_S1_S1024x97_01_n_1_0.window j 0 : Int)
      = ((emb2 j 0).val : Int) := by
  rw [pad2_start_0, pad2_window_0, Int.zero_add]; rfl

theorem pad2_sw_1 (j : S1024x97.Idx) (idx : IVec S1 32) (h0 : ∀ k, idx k = 0#32) :
    scatter_S1024x128_S1_S1024x97_01_n_1_0.start j idx 1 + (scatter_S1024x128_S1_S1024x97_01_n_1_0.window j 1 : Int)
      = ((emb2 j 1).val : Int) := by
  rw [pad2_start_1 j idx h0, pad2_window_1, Int.zero_add]; rfl

theorem pad2_result (j : S1024x97.Idx) (idx : IVec S1 32) (h0 : ∀ k, idx k = 0#32) :
    scatter_S1024x128_S1_S1024x97_01_n_1_0.resultIdx? j idx = some (emb2 j) :=
  resultIdx?_eq_some scatter_S1024x128_S1_S1024x97_01_n_1_0 j idx (emb2 j) (fun a => match a with
    | ⟨0, _⟩ => pad2_sw_0 j idx
    | ⟨1, _⟩ => pad2_sw_1 j idx h0)

/-- The output layer's weight in 128 columns: its 97 columns set into zeros. -/
def owPad (ow : FVec Ideal S1024x97 .f32) : FVec Ideal S1024x128 .f32 :=
  Host.scatter scatter_S1024x128_S1_S1024x97_01_n_1_0 (fun _ b => b)
    (broadcastInDim S1024x128 ![] Facts₀.bcast_S_S1024x128 (constant (F := Ideal) S_ .f32 0x00000000#32)) padIdx ow

/-- A column below 97 of the padded weight is the weight's. -/
theorem owPad_apply (ow : FVec Ideal S1024x97 .f32) (k : Fin 1024) (j : Fin 128) (hj : j.val < 97) :
    owPad ow (ix2 k j) = ow (ix2 k ⟨j.val, hj⟩) :=
  scatter_set_apply scatter_S1024x128_S1_S1024x97_01_n_1_0 _ padIdx ow emb2 emb2_inj
    (fun j => pad2_result j padIdx padIdx_apply) (ix2 k ⟨j.val, hj⟩)

/-! ### The bias: [97] into [128] -/

/-- Where element `j` of the update lands: at `j`. -/
def emb1 (j : S97.Idx) : S128.Idx := ix1 (⟨(j 0).val, Nat.lt_trans (j 0).isLt (by decide)⟩ : Fin 128)

theorem emb1_inj : Function.Injective emb1 := fun j j' h => funext fun a => match a with
  | ⟨0, _⟩ => Fin.ext (congrArg (fun i : S128.Idx => (i 0).val) h)

theorem pad1_start_0 (j : S97.Idx) (idx : IVec S1 32) (h0 : ∀ k, idx k = 0#32) :
    scatter_S128_S1_S97_0_n_0_0.start j idx 0 = 0 := by
  unfold ScatterDims.start
  rw [dif_pos (show (0 : Fin S128.rank) ∈ scatter_S128_S1_S97_0_n_0_0.scatterDimsToOperandDims by decide), h0]
  rfl

theorem pad1_window_0 (j : S97.Idx) : scatter_S128_S1_S97_0_n_0_0.window j 0 = (j 0).val := by
  unfold ScatterDims.window
  rw [dif_pos (show (0 : Fin S128.rank) ∈ scatter_S128_S1_S97_0_n_0_0.sKept by decide)]
  rfl

theorem pad1_sw_0 (j : S97.Idx) (idx : IVec S1 32) (h0 : ∀ k, idx k = 0#32) :
    scatter_S128_S1_S97_0_n_0_0.start j idx 0 + (scatter_S128_S1_S97_0_n_0_0.window j 0 : Int) = ((emb1 j 0).val : Int) := by
  rw [pad1_start_0 j idx h0, pad1_window_0, Int.zero_add]; rfl

theorem pad1_result (j : S97.Idx) (idx : IVec S1 32) (h0 : ∀ k, idx k = 0#32) :
    scatter_S128_S1_S97_0_n_0_0.resultIdx? j idx = some (emb1 j) :=
  resultIdx?_eq_some scatter_S128_S1_S97_0_n_0_0 j idx (emb1 j) (fun a => match a with
    | ⟨0, _⟩ => pad1_sw_0 j idx h0)

/-- The output layer's bias in 128 entries: its 97 entries set into zeros. -/
def obPad (ob : FVec Ideal S97 .f32) : FVec Ideal S128 .f32 :=
  Host.scatter scatter_S128_S1_S97_0_n_0_0 (fun _ b => b)
    (broadcastInDim S128 ![] Facts₀.bcast_S_S128 (constant (F := Ideal) S_ .f32 0x00000000#32)) padIdx ob

/-- An entry below 97 of the padded bias is the bias's. -/
theorem obPad_apply (ob : FVec Ideal S97 .f32) (j : Fin 128) (hj : j.val < 97) :
    obPad ob (ix1 j) = ob (ix1 ⟨j.val, hj⟩) :=
  scatter_set_apply scatter_S128_S1_S97_0_n_0_0 _ padIdx ob emb1 emb1_inj
    (fun j => pad1_result j padIdx padIdx_apply) (ix1 ⟨j.val, hj⟩)

/-! ## The four arrays -/

variable (m : (ℓ : Loc nD τ sig) → Buf (Elt Ideal) ℓ)

/-- Window 2's array: the pair indices with their last two axes exchanged. -/
theorem V_hti (c : Dev nD) (b : Fin 8) (s : Fin 2) (p : Fin 1024) :
    (V m c main_call0_v16 : S8x2x1024.Idx → BitVec 32) (ix3 b s p) = (kargs m c).hti (ix3 b p s) := by
  have e : (V m c main_call0_v16 : S8x2x1024.Idx → BitVec 32)
      = transpose S8x2x1024 [0, 2, 1] (kargs m c).hti Facts₀.transposes_S8x1024x2_S8x2x1024_0_2_1 := by
    show StableHlo.after hostOps0 (fun b => m (c, b)) (Proc.devRef .tc main_call0_v16) = _
    after_results
    rfl
  rw [e]
  exact transpose_ix3_021_apply (kargs m c).hti Facts₀.transposes_S8x1024x2_S8x2x1024_0_2_1 b s p

/-- One half of the dense layer's weight (rows `o` to `o + 1023`) times the padded output weight, at a column below 97. -/
theorem fold_apply (o : Nat) (hs : S2048x1024.Slices ![o, 0] S1024x1024) (dw : FVec Ideal S2048x1024 .f32)
    (ow : FVec Ideal S1024x97 .f32) (h : Fin 1024) (j : Fin 128) (hj : j.val < 97) (r : Fin 2048) (hr : r.val = o + h.val) :
    Host.dotGeneral (F := Ideal) dot_S1024x1024_S1024x128_S1024x128_1_0_0_1_n_n (some .fp32)
        (extractStridedSlice S1024x1024 ![o, 0] dw hs) (owPad ow) (ix2 h j)
      = ∑ k : Fin 1024, dw (ix2 r k) * ow (ix2 k ⟨j.val, hj⟩) := by
  simp only [Host.dotGeneral]
  rw [Cert.Lib.dotGeneral_plain_apply dot_S1024x1024_S1024x128_S1024x128_1_0_0_1_n_n rfl rfl rfl rfl rfl rfl]
  refine Finset.sum_congr rfl fun k _ => ?_
  rw [owPad_apply ow k j hj, slice2_axis0_apply o dw hs h k r hr]

/-- Window 3's array at a label column: the first folded weight. -/
theorem V_wc1 (c : Dev nD) (h : Fin 1024) (j : Fin 128) (hj : j.val < 97) :
    (V m c main_call0_v9 : S1024x128.Idx → EReal) (ix2 h j) = wc (kargs m c) 0 h ⟨j.val, hj⟩ := by
  have e : (V m c main_call0_v9 : S1024x128.Idx → EReal)
      = truncf .bf16 (Host.dotGeneral (F := Ideal) dot_S1024x1024_S1024x128_S1024x128_1_0_0_1_n_n (some .fp32)
          (extractStridedSlice S1024x1024 ![0, 0] (kargs m c).dw Facts₀.slices_S2048x1024_S1024x1024_0_0)
          (owPad (kargs m c).ow)) Facts₀.bitsLt_bf16_f32 := by
    show StableHlo.after hostOps0 (fun b => m (c, b)) (Proc.devRef .tc main_call0_v9) = _
    after_results
    simp only [ofBuf_toBuf]
    rfl
  rw [e, truncf_apply, fold_apply 0 _ (kargs m c).dw (kargs m c).ow h j hj (dwRow 0 h) (by show 1024 * 0 + h.val = 0 + h.val; omega)]
  rfl

/-- Window 4's array at a label column: the second folded weight. -/
theorem V_wc2 (c : Dev nD) (h : Fin 1024) (j : Fin 128) (hj : j.val < 97) :
    (V m c main_call0_v11 : S1024x128.Idx → EReal) (ix2 h j) = wc (kargs m c) 1 h ⟨j.val, hj⟩ := by
  have e : (V m c main_call0_v11 : S1024x128.Idx → EReal)
      = truncf .bf16 (Host.dotGeneral (F := Ideal) dot_S1024x1024_S1024x128_S1024x128_1_0_0_1_n_n (some .fp32)
          (extractStridedSlice S1024x1024 ![1024, 0] (kargs m c).dw Facts₀.slices_S2048x1024_S1024x1024_1024_0)
          (owPad (kargs m c).ow)) Facts₀.bitsLt_bf16_f32 := by
    show StableHlo.after hostOps0 (fun b => m (c, b)) (Proc.devRef .tc main_call0_v11) = _
    after_results
    simp only [ofBuf_toBuf]
    rfl
  rw [e, truncf_apply, fold_apply 1024 _ (kargs m c).dw (kargs m c).ow h j hj (dwRow 1 h) (by show 1024 * 1 + h.val = 1024 + h.val; omega)]
  rfl

/-- The dense layer's bias, as one row, times the padded output weight, plus the padded bias, at an entry below 97. -/
theorem foldb_apply (db : FVec Ideal S1024 .f32) (ow : FVec Ideal S1024x97 .f32) (ob : FVec Ideal S97 .f32)
    (j : Fin 128) (hj : j.val < 97) :
    addf (shapeCast S128 (Host.dotGeneral (F := Ideal) dot_S1x1024_S1024x128_S1x128_1_0_0_1_n_n (some .fp32)
        (shapeCast S1x1024 db Facts₀.shapeCasts_S1024_S1x1024) (owPad ow)) Facts₀.shapeCasts_S1x128_S128) (obPad ob) (ix1 j)
      = (∑ k : Fin 1024, db (ix1 k) * ow (ix2 k ⟨j.val, hj⟩)) + ob (ix1 ⟨j.val, hj⟩) := by
  rw [addf_apply, obPad_apply ob j hj, shapeCast_1a_a_apply]
  simp only [Host.dotGeneral]
  rw [Cert.Lib.dotGeneral_plain_apply dot_S1x1024_S1024x128_S1x128_1_0_0_1_n_n rfl rfl rfl rfl rfl rfl]
  refine congrArg (· + ob (ix1 ⟨j.val, hj⟩)) (Finset.sum_congr rfl fun k _ => ?_)
  rw [owPad_apply ow k j hj, shapeCast_a_1a_apply]

/-- Window 5's array at a label column: the folded bias. -/
theorem V_bc (c : Dev nD) (j : Fin 128) (hj : j.val < 97) :
    (V m c main_call0_v15 : S128.Idx → EReal) (ix1 j) = bc (kargs m c) ⟨j.val, hj⟩ := by
  have e : (V m c main_call0_v15 : S128.Idx → EReal)
      = addf (shapeCast S128 (Host.dotGeneral (F := Ideal) dot_S1x1024_S1024x128_S1x128_1_0_0_1_n_n (some .fp32)
          (shapeCast S1x1024 (kargs m c).db Facts₀.shapeCasts_S1024_S1x1024) (owPad (kargs m c).ow))
          Facts₀.shapeCasts_S1x128_S128) (obPad (kargs m c).ob) := by
    show StableHlo.after hostOps0 (fun b => m (c, b)) (Proc.devRef .tc main_call0_v15) = _
    after_results
    simp only [ofBuf_toBuf]
    rfl
  rw [e, foldb_apply (kargs m c).db (kargs m c).ow (kargs m c).ob j hj]
  rfl

end Cert.Bridge

end
-- ==== Proof.KIface.lean ====
/-
  The two facts the kernel's value rests on, as propositions: what the body stores, entry by entry, and what the host
  operations before the region leave in the arrays of windows 2 to 5.  Module KBody proves the first, module KHost the
  second; module KValue derives the program's result from them.
-/
import proofs.«411475_j52836687675513_2_alg».proof.Proof.Gen.KernelIdeal.Frame
import proofs.«411475_j52836687675513_2_alg».proof.Proof.KArgs

noncomputable section

open scoped BigOperators

namespace Cert.Bridge

open Idealize.ShloMosaic Idealize.ShloMosaic.TcCoe Idealize.SL.Sem Idealize.ShloMosaic.ValueIdx Cert.KernelIdeal Cert.KernelIdeal.Gen

/-- Entry (0, p, j) of the block the body stores, from the blocks it loads (`x0` hidden states, `x1` mention
    positions, `x2` head and tail entity indices, `x3`, `x4` folded weights, `x5` folded bias), the positions and
    entity indices in range. -/
def BodyStmt : Prop :=
  ∀ (x0 : Vec Ideal S1x2048x1024 .f32) (x1 : Vec Ideal S1x32x4 .i32) (x2 : Vec Ideal S1x2x1024 .i32)
    (x3 : Vec Ideal S1024x128 .bf16) (x4 : Vec Ideal S1024x128 .bf16) (x5 : Vec Ideal S128 .f32),
    (∀ i, (x1 i : BitVec 32).toNat < 2048) → (∀ i, (x2 i : BitVec 32).toNat < 32) →
    ∀ (p : Fin 1024) (j : Fin 128),
    k0_pay1 (F := Ideal) (k0_pay2 (F := Ideal) x1 x0) x3 x4 x2 x5 (ix3 (0 : Fin 1) p j)
      = (∑ e : Fin 32, (if e.val = (x2 (ix3 (0 : Fin 1) (0 : Fin 2) p) : BitVec 32).toNat then (1 : EReal) else 0)
            * ∑ h : Fin 1024, (∑ l : Fin 2048, (∑ m : Fin 4, if l.val = (x1 (ix3 (0 : Fin 1) e m) : BitVec 32).toNat then (1 : EReal) else 0)
                * (x0 (ix3 (0 : Fin 1) l h) : EReal)) * (x3 (ix2 h j) : EReal))
        + (∑ e : Fin 32, (if e.val = (x2 (ix3 (0 : Fin 1) (1 : Fin 2) p) : BitVec 32).toNat then (1 : EReal) else 0)
            * ∑ h : Fin 1024, (∑ l : Fin 2048, (∑ m : Fin 4, if l.val = (x1 (ix3 (0 : Fin 1) e m) : BitVec 32).toNat then (1 : EReal) else 0)
                * (x0 (ix3 (0 : Fin 1) l h) : EReal)) * (x4 (ix2 h j) : EReal))
        + (x5 (ix1 j) : EReal)

/-- What the region finds in the arrays of windows 2 to 5: the pair indices with their last two axes exchanged, the two
    folded weights and the folded bias at every label column. -/
def HostStmt (m : (ℓ : Loc nD τ sig) → Buf (Elt Ideal) ℓ) : Prop :=
  (∀ (c : Dev nD) (b : Fin 8) (s : Fin 2) (p : Fin 1024),
      (V m c main_call0_v16 : S8x2x1024.Idx → BitVec 32) (ix3 b s p) = (kargs m c).hti (ix3 b p s))
  ∧ (∀ (c : Dev nD) (h : Fin 1024) (j : Fin 128) (hj : j.val < 97),
      (V m c main_call0_v9 : S1024x128.Idx → EReal) (ix2 h j) = wc (kargs m c) 0 h ⟨j.val, hj⟩)
  ∧ (∀ (c : Dev nD) (h : Fin 1024) (j : Fin 128) (hj : j.val < 97),
      (V m c main_call0_v11 : S1024x128.Idx → EReal) (ix2 h j) = wc (kargs m c) 1 h ⟨j.val, hj⟩)
  ∧ (∀ (c : Dev nD) (j : Fin 128) (hj : j.val < 97),
      (V m c main_call0_v15 : S128.Idx → EReal) (ix1 j) = bc (kargs m c) ⟨j.val, hj⟩)

end Cert.Bridge

end
-- ==== Proof.KEntry.lean ====
/-
  One entry of the block the body stores is the kernel's logit, once the loaded blocks are the batch's rows of the
  argument arrays and of the folded weights and bias.
-/
import proofs.«411475_j52836687675513_2_alg».proof.Proof.KIface

noncomputable section

open scoped BigOperators

namespace Cert.Bridge

open Idealize.ShloMosaic Idealize.ShloMosaic.ValueIdx Cert.KernelIdeal Cert.KernelIdeal.Gen

/-- Batch `b`'s blocks: `x0` its hidden states, `x1` its mention positions, `x2` its pair indices (row 0 heads, row 1
    tails), `x3`, `x4` the folded weights and `x5` the folded bias at the label columns.  Then entry (0, p, j) of what
    the body stores, at a label column `j < 97`, is `kval A b p j`. -/
theorem entry_eq (hbody : BodyStmt) (A : Args) (hr : InRange A) (b : Fin 8)
    (x0 : Vec Ideal S1x2048x1024 .f32) (x1 : Vec Ideal S1x32x4 .i32) (x2 : Vec Ideal S1x2x1024 .i32)
    (x3 : Vec Ideal S1024x128 .bf16) (x4 : Vec Ideal S1024x128 .bf16) (x5 : Vec Ideal S128 .f32)
    (h0 : ∀ (l : Fin 2048) (h : Fin 1024), (x0 (ix3 (0 : Fin 1) l h) : EReal) = A.hs (ix3 b l h))
    (h1 : ∀ (e : Fin 32) (mm : Fin 4), (x1 (ix3 (0 : Fin 1) e mm) : BitVec 32) = A.epi (ix3 b e mm))
    (h2 : ∀ (s : Fin 2) (p : Fin 1024), (x2 (ix3 (0 : Fin 1) s p) : BitVec 32) = A.hti (ix3 b p s))
    (h3 : ∀ (h : Fin 1024) (j : Fin 128) (hj : j.val < 97), (x3 (ix2 h j) : EReal) = wc A 0 h ⟨j.val, hj⟩)
    (h4 : ∀ (h : Fin 1024) (j : Fin 128) (hj : j.val < 97), (x4 (ix2 h j) : EReal) = wc A 1 h ⟨j.val, hj⟩)
    (h5 : ∀ (j : Fin 128) (hj : j.val < 97), (x5 (ix1 j) : EReal) = bc A ⟨j.val, hj⟩)
    (p : Fin 1024) (j : Fin 128) (hj : j.val < 97) :
    k0_pay1 (F := Ideal) (k0_pay2 (F := Ideal) x1 x0) x3 x4 x2 x5 (ix3 (0 : Fin 1) p j) = kval A b p ⟨j.val, hj⟩ := by
  have hx1 : ∀ i, (x1 i : BitVec 32).toNat < 2048 := fun i => by
    obtain ⟨a, e, mm, rfl⟩ : ∃ (a : Fin 1) (e : Fin 32) (mm : Fin 4), i = ix3 a e mm := ⟨i 0, i 1, i 2, eq_ix3 i⟩
    have ha : a = 0 := Subsingleton.elim _ _
    subst ha
    rw [h1]
    exact hr.epi_lt _
  have hx2 : ∀ i, (x2 i : BitVec 32).toNat < 32 := fun i => by
    obtain ⟨a, s, q, rfl⟩ : ∃ (a : Fin 1) (s : Fin 2) (q : Fin 1024), i = ix3 a s q := ⟨i 0, i 1, i 2, eq_ix3 i⟩
    have ha : a = 0 := Subsingleton.elim _ _
    subst ha
    rw [h2]
    exact hr.hti_lt _
  -- in range, the position and the entity a specification index names are the loaded words' values
  have hpos : ∀ (e : Fin 32) (m : Fin 4) (l : Fin 2048), l = pos A b e m ↔ l.val = (A.epi (ix3 b e m)).toNat := fun e m l => by
    rw [Fin.ext_iff]
    show l.val = min (A.epi (ix3 b e m)).toNat 2047 ↔ _
    have := hr.epi_lt (ix3 b e m)
    rw [Nat.min_eq_left (by omega)]
  have hent : ∀ (s : Fin 2) (e : Fin 32), e = ent A b p s ↔ e.val = (A.hti (ix3 b p s)).toNat := fun s e => by
    rw [Fin.ext_iff]
    show e.val = min (A.hti (ix3 b p s)).toNat 31 ↔ _
    have := hr.hti_lt (ix3 b p s)
    rw [Nat.min_eq_left (by omega)]
  rw [hbody x0 x1 x2 x3 x4 x5 hx1 hx2 p j]
  unfold kval sel proj rep cnt
  simp only [h0, h1, h2, h3 _ _ hj, h4 _ _ hj, h5 _ hj, hpos, hent]

end Cert.Bridge

end
-- ==== Proof.KValue.lean ====
/-
  The kernel program's result: from the frame run, the output array after the region block by block, the entries of a
  block by the body's store, and the host's closing slice and reshape, to the kernel's arrangement of the logits.

  The grid has one point per batch.  At point `t` the body loads batch `t`'s hidden states, mention positions and
  pair-index rows and the whole folded weights and bias, and stores a block of 1024 pairs by 128 columns, which is written
  back as rows `t` of the output array of shape 8 x 1024 x 128.  So that array is, entry by entry, the body's stored block
  for the entry's batch (`regionOut`), and below column 97 such an entry is the kernel's logit (`regionOut_eq`).  The
  host then keeps columns 0 to 96 and lays the 8 x 1024 rows out as 8192: row `r` of the result is pair `r % 1024` of
  batch `r / 1024` (`tail_eq`).
-/
import proofs.«411475_j52836687675513_2_alg».proof.Proof.KIface
import proofs.«411475_j52836687675513_2_alg».proof.Proof.KEntry
import Idealize.ShloMosaic.Lib.Pipeline.Value
import Idealize.ShloMosaic.Lib.ValueLayout
import Idealize.ShloMosaic.Lib.StableHlo.Run

noncomputable section

open scoped BigOperators

namespace Cert.Bridge

open Idealize.ShloMosaic Idealize.ShloMosaic.TcCoe Idealize.SL.Sem Idealize.ShloMosaic.ValueIdx Cert.KernelIdeal Cert.KernelIdeal.Gen

section Region

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The batch a grid point works on. -/
def batchOf (t : Fin cfg0.N) : Fin 8 := ⟨t.val, by have h : grid0.N = 8 := N_0; have ht : t.val < grid0.N := t.isLt; omega⟩
/-- The grid point that works on a batch. -/
def pointOf (b : Fin 8) : Fin cfg0.N := ⟨b.val, by have h : grid0.N = 8 := N_0; show b.val < grid0.N; omega⟩

/-- Batch `b`'s hidden states as the region finds them. -/
def hsBlk (c : Dev nD) (b : Fin 8) : Vec Ideal S1x2048x1024 .f32 :=
  fun y => (V m c main_arg0 : S8x2048x1024.Idx → EReal) (ix3 b (y 1 : Fin 2048) (y 2 : Fin 1024))
/-- Batch `b`'s mention positions. -/
def epiBlk (c : Dev nD) (b : Fin 8) : Vec Ideal S1x32x4 .i32 :=
  fun y => (V m c main_arg5 : S8x32x4.Idx → BitVec 32) (ix3 b (y 1 : Fin 32) (y 2 : Fin 4))
/-- Batch `b`'s head and tail entity indices, one row each. -/
def htiBlk (c : Dev nD) (b : Fin 8) : Vec Ideal S1x2x1024 .i32 :=
  fun y => (V m c main_call0_v16 : S8x2x1024.Idx → BitVec 32) (ix3 b (y 1 : Fin 2) (y 2 : Fin 1024))

/-- The printed index maps over the grid: windows 0, 1, 2 and 6 sit at block `t` of their leading axis, windows 3, 4, 5 at
    their one block. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0 :=
  (by decide +kernel : ∀ t : Fin grid0.N, _)

/-- Window 0's block at a point is the batch's hidden states. -/
theorem iblk0_eq (c : Dev nD) (t : Fin cfg0.N) : (iblk m c 0 t : Vec Ideal S1x2048x1024 .f32) = hsBlk m c (batchOf t) := by
  obtain ⟨e0, e1, e2, -⟩ := index_facts t
  funext y
  unfold iblk
  rw [View.read_apply]
  show V m c main_arg0 _ = V m c main_arg0 _
  refine congrArg _ ?_
  funext a
  apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 2048 + 1 * (y 1).val = (y 1).val; omega
  | ⟨2, _⟩ => show win0_0.index t (2 : Fin 3) * 1024 + 1 * (y 2).val = (y 2).val; omega

/-- Window 1's block at a point is the batch's mention positions. -/
theorem iblk1_eq (c : Dev nD) (t : Fin cfg0.N) : (iblk m c 1 t : Vec Ideal S1x32x4 .i32) = epiBlk m c (batchOf t) := by
  obtain ⟨-, -, -, e0, e1, e2, -⟩ := index_facts t
  funext y
  unfold iblk
  rw [View.read_apply]
  show V m c main_arg5 _ = V m c main_arg5 _
  refine congrArg _ ?_
  funext a
  apply Fin.ext
  match a with
  | ⟨0, _⟩ => show win0_1.index t (0 : Fin 3) * 1 + 1 * (y 0).val = t.val; have hy : (y 0).val < 1 := (y 0).isLt; omega
  | ⟨1, _⟩ => show win0_1.index t (1 : Fin 3) * 32 + 1 * (y 1).val = (y 1).val; omega
  | ⟨2, _⟩ => show win0_1.index t (2 : Fin 3) * 4 + 1 * (y 2).val = (y 2).val; omega

/-- Window 2's block at a point is the batch's head and tail rows. -/
theorem iblk2_eq (c : Dev nD) (t : Fin cfg0.N) : (iblk m c 2 t : Vec Ideal S1x2x1024 .i32) = htiBlk m c (batchOf t) := by
  obtain ⟨-, -, -, -, -, -, e0, e1, e2, -⟩ := index_facts t
  funext y
  unfold iblk
  rw [View.read_apply]
  show V m c main_call0_v16 _ = V m c main_call0_v16 _
  refine congrArg _ ?_
  funext a
  apply Fin.ext
  match a with
  | ⟨0, _⟩ => show win0_2.index t (0 : Fin 3) * 1 + 1 * (y 0).val = t.val; have hy : (y 0).val < 1 := (y 0).isLt; omega
  | ⟨1, _⟩ => show win0_2.index t (1 : Fin 3) * 2 + 1 * (y 1).val = (y 1).val; omega
  | ⟨2, _⟩ => show win0_2.index t (2 : Fin 3) * 1024 + 1 * (y 2).val = (y 2).val; omega

/-- Windows 3, 4 and 5 stage their whole arrays. -/
theorem iblk3_eq (c : Dev nD) (t : Fin cfg0.N) : (iblk m c 3 t : Vec Ideal S1024x128 .bf16) = V m c main_call0_v9 := by
  obtain ⟨-, -, -, -, -, -, -, -, -, e0, e1, -⟩ := index_facts t
  funext y
  unfold iblk
  rw [View.read_apply]
  show V m c main_call0_v9 _ = V m c main_call0_v9 _
  refine congrArg _ ?_
  funext a
  apply Fin.ext
  match a with
  | ⟨0, _⟩ => show win0_3.index t (0 : Fin 2) * 1024 + 1 * (y 0).val = (y 0).val; omega
  | ⟨1, _⟩ => show win0_3.index t (1 : Fin 2) * 128 + 1 * (y 1).val = (y 1).val; omega

theorem iblk4_eq (c : Dev nD) (t : Fin cfg0.N) : (iblk m c 4 t : Vec Ideal S1024x128 .bf16) = V m c main_call0_v11 := by
  obtain ⟨-, -, -, -, -, -, -, -, -, -, -, e0, e1, -⟩ := index_facts t
  funext y
  unfold iblk
  rw [View.read_apply]
  show V m c main_call0_v11 _ = V m c main_call0_v11 _
  refine congrArg _ ?_
  funext a
  apply Fin.ext
  match a with
  | ⟨0, _⟩ => show win0_4.index t (0 : Fin 2) * 1024 + 1 * (y 0).val = (y 0).val; omega
  | ⟨1, _⟩ => show win0_4.index t (1 : Fin 2) * 128 + 1 * (y 1).val = (y 1).val; omega

theorem iblk5_eq (c : Dev nD) (t : Fin cfg0.N) : (iblk m c 5 t : Vec Ideal S128 .f32) = V m c main_call0_v15 := by
  obtain ⟨-, -, -, -, -, -, -, -, -, -, -, -, -, e0, -⟩ := index_facts t
  funext y
  unfold iblk
  rw [View.read_apply]
  show V m c main_call0_v15 _ = V m c main_call0_v15 _
  refine congrArg _ ?_
  funext a
  apply Fin.ext
  match a with
  | ⟨0, _⟩ => show win0_5.index t (0 : Fin 1) * 128 + 1 * (y 0).val = (y 0).val; omega

/-- The region's output array, entry by entry: the body's stored block for the entry's batch, at the entry's pair and column. -/
def regionOut (c : Dev nD) : S8x1024x128.Idx → EReal := fun i =>
  k0_pay1 (F := Ideal) (k0_pay2 (F := Ideal) (epiBlk m c (i 0)) (hsBlk m c (i 0))) (V m c main_call0_v9) (V m c main_call0_v11)
    (htiBlk m c (i 0)) (V m c main_call0_v15) (ix3 (0 : Fin 1) (i 1 : Fin 1024) (i 2 : Fin 128))

/-- The body's stored block for batch `b`, at an entry, is the array's entry at batch `b` and the same pair and column. -/
theorem regionOut_blk (c : Dev nD) (b : Fin 8) (j : S1x1024x128.Idx) (i : S8x1024x128.Idx)
    (h0 : (i 0).val = b.val) (h1 : (i 1).val = (j 1).val) (h2 : (i 2).val = (j 2).val) :
    k0_pay1 (F := Ideal) (k0_pay2 (F := Ideal) (epiBlk m c b) (hsBlk m c b)) (V m c main_call0_v9) (V m c main_call0_v11)
      (htiBlk m c b) (V m c main_call0_v15) j = regionOut m c i := by
  obtain ⟨b', p, q, rfl⟩ : ∃ (b' : Fin 8) (p : Fin 1024) (q : Fin 128), i = ix3 b' p q := ⟨i 0, i 1, i 2, eq_ix3 i⟩
  obtain ⟨z, p', q', rfl⟩ : ∃ (z : Fin 1) (p' : Fin 1024) (q' : Fin 128), j = ix3 z p' q' := ⟨j 0, j 1, j 2, eq_ix3 j⟩
  obtain rfl : b' = b := Fin.ext h0
  obtain rfl : p = p' := Fin.ext h1
  obtain rfl : q = q' := Fin.ext h2
  obtain rfl : z = 0 := Subsingleton.elim _ _
  rfl

/-- What a point writes back is its block of that array. -/
theorem flushed_eq (c : Dev nD) (t : Fin cfg0.N) :
    (dats m 0 c).flushed 6 t = ((cfg0.win 6).blk t).view.read (Elt Ideal) (regionOut m c) := by
  show (cfg0.win 6).cut (grid0.coords t) ((dats m 0 c).after 6 t) = _
  rw [after0_6]
  unfold out0_6
  rw [View.canon_unit_zero zero3]
  simp only [View.ld_unit_zero (S := S1x32x4) zero3, View.ld_unit_zero (S := S1x2048x1024) zero3,
    View.ld_unit_zero (S := S1024x128) zero2, View.ld_unit_zero (S := S1x2x1024) zero3, View.ld_unit_zero (S := S128) zero1]
  rw [iblk0_eq, iblk1_eq, iblk2_eq, iblk3_eq, iblk4_eq, iblk5_eq]
  obtain ⟨-, -, -, -, -, -, -, -, -, -, -, -, -, -, e0, e1, e2⟩ := index_facts t
  funext j
  rw [View.read_apply]
  refine regionOut_blk m c (batchOf t) j _ ?_ ?_ ?_
  · show win0_6.index t (0 : Fin 3) * 1 + 1 * (j 0).val = t.val
    have hy : (j 0).val < 1 := (j 0).isLt
    omega
  · show win0_6.index t (1 : Fin 3) * 1024 + 1 * (j 1).val = (j 1).val
    omega
  · show win0_6.index t (2 : Fin 3) * 128 + 1 * (j 2).val = (j 2).val
    omega

/-- An index of the output array is in point `t`'s block iff each coordinate is in the block's range on its axis. -/
theorem mem_blk (t : Fin cfg0.N) (i : S8x1024x128.Idx) :
    i ∈ ((cfg0.win 6).blk t).view.set ↔ ∀ a : Fin 3, win0_6.index t a * S1x1024x128.size a ≤ (i a).val ∧ (i a).val < win0_6.index t a * S1x1024x128.size a + S1x1024x128.size a := by
  show i ∈ ((View.whole main_call0_v17).slice (win0_6.rect t)).set ↔ _
  rw [View.set_slice_whole, Rect.mem_set_unit]
  exact Iff.rfl

/-- Every entry of the output array is in its batch's point's block. -/
theorem covered (i : S8x1024x128.Idx) : ∃ t : Fin cfg0.N, (cfg0.win 6).flush t = true ∧ i ∈ ((cfg0.win 6).blk t).view.set := by
  have h0 : (i 0).val < 8 := (i 0).isLt
  have h1 : (i 1).val < 1024 := (i 1).isLt
  have h2 : (i 2).val < 128 := (i 2).isLt
  refine ⟨pointOf ⟨(i 0).val, h0⟩, flush0_6 _, ?_⟩
  obtain ⟨-, -, -, -, -, -, -, -, -, -, -, -, -, -, e0, e1, e2⟩ := index_facts (pointOf ⟨(i 0).val, h0⟩)
  have e0' : win0_6.index (pointOf ⟨(i 0).val, h0⟩) (0 : Fin 3) = (i 0).val := e0
  rw [mem_blk]
  intro a
  match a with
  | ⟨0, _⟩ => show win0_6.index (pointOf ⟨(i 0).val, h0⟩) (0 : Fin 3) * 1 ≤ (i 0).val ∧ (i 0).val < win0_6.index (pointOf ⟨(i 0).val, h0⟩) (0 : Fin 3) * 1 + 1; omega
  | ⟨1, _⟩ => show win0_6.index (pointOf ⟨(i 0).val, h0⟩) (1 : Fin 3) * 1024 ≤ (i 1).val ∧ (i 1).val < win0_6.index (pointOf ⟨(i 0).val, h0⟩) (1 : Fin 3) * 1024 + 1024; omega
  | ⟨2, _⟩ => show win0_6.index (pointOf ⟨(i 0).val, h0⟩) (2 : Fin 3) * 128 ≤ (i 2).val ∧ (i 2).val < win0_6.index (pointOf ⟨(i 0).val, h0⟩) (2 : Fin 3) * 128 + 128; omega

/-- So the output array ends holding it. -/
theorem final (c : Dev nD) : (dats m 0 c).arrAt 6 cfg0.N = regionOut m c :=
  (dats m 0 c).arrAt_eq_of_cover 6 (regionOut m c) (fun t _ => flushed_eq m c t) covered

/-- Below the label columns, an entry of the region's output is the kernel's logit. -/
theorem regionOut_eq (hbody : BodyStmt) (hhost : HostStmt m) (hr : ∀ c : Dev nD, InRange (kargs m c)) (c : Dev nD)
    (b : Fin 8) (p : Fin 1024) (j : Fin 128) (hj : j.val < 97) :
    regionOut m c (ix3 b p j) = kval (kargs m c) b p ⟨j.val, hj⟩ := by
  obtain ⟨hti, hw0, hw1, hb⟩ := hhost
  refine entry_eq hbody (kargs m c) (hr c) b (hsBlk m c b) (epiBlk m c b) (htiBlk m c b) (V m c main_call0_v9)
    (V m c main_call0_v11) (V m c main_call0_v15) (fun l h => ?_) (fun e mm => ?_) (fun s q => ?_)
    (fun h j hj => hw0 c h j hj) (fun h j hj => hw1 c h j hj) (fun j hj => hb c j hj) p j hj
  · show (V m c main_arg0 : S8x2048x1024.Idx → EReal) (ix3 b l h) = _
    rw [V_main_arg0]
    rfl
  · show (V m c main_arg5 : S8x32x4.Idx → BitVec 32) (ix3 b e mm) = _
    rw [V_main_arg5]
    rfl
  · exact hti c b s q

/-- Row `r` of the result and entry `(r / 1024, r % 1024)` of the sliced output sit at the same row-major position. -/
theorem result_pos (r : Fin 8192) (q : Fin 97) (hb : r.val / 1024 < 8) (hp : r.val % 1024 < 1024) :
    (S8x1024x97.rowMajor (ix3 (⟨r.val / 1024, hb⟩ : Fin 8) (⟨r.val % 1024, hp⟩ : Fin 1024) q)).val
      = (S8192x97.rowMajor (ix2 r q)).val := by
  rw [Shape.rowMajor_val_three, Shape.rowMajor_val_two]
  show (r.val / 1024 * 1024 + r.val % 1024) * 97 + q.val = r.val * 97 + q.val
  have := Nat.div_add_mod r.val 1024
  omega

/-- The closing slice and reshape: row `1024 * b + p`, column `j` of the result is entry `(b, p, j)` of the region's output. -/
theorem tail_eq (hbody : BodyStmt) (hhost : HostStmt m) (hr : ∀ c : Dev nD, InRange (kargs m c)) (c : Dev nD) :
    Pipeline.afterTail₀ cfgs (dats m) 0 (V0 m) [hostOps1] c main_v0 = KSpec (kargs m c) := by
  have hA : Pipeline.withArrays (cfgs 0).spec c (V0 m c) (fun w => (dats m 0 c).arrAt w (cfgs 0).N) (Proc.devRef .tc main_call0_v17)
      = regionOut m c :=
    (Pipeline.withArrays_arr spec0 launch0.win.arr_inj c _ _ 6).trans (final m c)
  unfold Pipeline.afterTail₀
  show StableHlo.after hostOps1 _ (Proc.devRef .tc main_v0) = _
  after_results
  funext i
  show shapeCast S8192x97 (extractStridedSlice S8x1024x97 ![0, 0, 0]
      (Pipeline.withArrays (cfgs 0).spec c (V0 m c) (fun w => (dats m 0 c).arrAt w (cfgs 0).N) (Proc.devRef .tc main_call0_v17))
      slices_S8x1024x128_S8x1024x97_0_0_0) shapeCasts_S8x1024x97_S8192x97 i = _
  rw [hA]
  obtain ⟨r, q, rfl⟩ : ∃ (r : Fin 8192) (q : Fin 97), i = ix2 r q := ⟨i 0, i 1, eq_ix2 i⟩
  have hb : r.val / 1024 < 8 := by have := r.isLt; omega
  have hp : r.val % 1024 < 1024 := Nat.mod_lt _ (by decide)
  have hq : q.val < 128 := by have := q.isLt; omega
  refine (shapeCast_apply _ _ (ix2 r q) (ix3 (⟨r.val / 1024, hb⟩ : Fin 8) (⟨r.val % 1024, hp⟩ : Fin 1024) q) (result_pos r q hb hp)).trans ?_
  refine (extractStridedSlice_apply _ _ _ _ (ix3 (⟨r.val / 1024, hb⟩ : Fin 8) (⟨r.val % 1024, hp⟩ : Fin 1024) (⟨q.val, hq⟩ : Fin 128)) (fun a => ?_)).trans ?_
  · match a with
    | ⟨0, _⟩ => show r.val / 1024 = 0 + r.val / 1024; omega
    | ⟨1, _⟩ => show r.val % 1024 = 0 + r.val % 1024; omega
    | ⟨2, _⟩ => show q.val = 0 + q.val; omega
  exact regionOut_eq m hbody hhost hr c _ _ _ q.isLt

end Region

/-- The kernel program, from any memory whose index arrays are in range, ends with its result at the kernel's
    arrangement of the logits and its arguments unchanged. -/
theorem kernel_value (hbody : BodyStmt) (m : (ℓ : Loc nD τ sig) → Buf (Elt Ideal) ℓ) (hhost : HostStmt m)
    (hr : ∀ c : Dev nD, InRange (kargs m c)) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = KSpec (kargs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v0 (Pipeline.mem_restRefs_of main_v0 (by decide) (by decide))).trans (tail_eq m hbody hhost hr c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 1).trans (((dats m 0 c).arrAt_in 1 rfl _).trans ((A_eq m c 1).trans (V_main_arg5 m c))),
      ((h c).2 main_arg6 (Pipeline.mem_restRefs_of main_arg6 (by decide) (by decide))).trans (W_main_arg6 m (dats m) c)⟩)
    (run_main m ρ)

end Cert.Bridge

end
-- ==== Proof.LibGatherBatchedEntries.lean ====
/-
  A gather of single entries along a middle axis, batched over the two outer axes, read at an index.

  `jnp.take_along_axis(x, idx, axis=1)` on an operand `x : [B, K, M]` with indices `idx : [B, Q, M]` lowers to a
  `stablehlo.gather` over the indices reshaped to `[B, Q, M, 1]`: operand axes 0 and 2 are BATCHING axes, paired with
  start-indices axes 0 and 2; operand axis 1 is collapsed and named by the start index map; there is no offset axis
  (slice sizes `[1, 1, 1]`, index vector on axis 3 of the start indices).  Result element `(b, q, m)` is then the operand
  at batch coordinates `b` and `m`, at the position the start index `idx[b, q, m, 0]` names on axis 1 — read as a signed
  integer and clamped into `[0, K − 1]`, as StableHLO clamps every start index.
-/
import Idealize.ShloMosaic.Lib.ValueIdx

noncomputable section

namespace Cert.LibGatherBatchedEntries

open Idealize.ShloMosaic Idealize.ShloMosaic.ValueIdx

variable {α : Type}

/-- The dimension numbers of the gather for an operand `[B, K, M]`, start indices `[B, Q, M, 1]` and a result
    `[B, Q, M]`; their well-formedness `wf` is decided on a program's literal shapes. -/
abbrev entryDims (B K M Q : Nat)
    (wf : GatherDims.WF ⟨3, ![B, K, M]⟩ ⟨4, ![B, Q, M, 1]⟩ ⟨3, ![B, Q, M]⟩ [] [1] [0, 2] [1] [0, 2] 3 ![1, 1, 1]) :
    GatherDims ⟨3, ![B, K, M]⟩ ⟨4, ![B, Q, M, 1]⟩ ⟨3, ![B, Q, M]⟩ where
  offsetDims := []
  collapsedSliceDims := [1]
  operandBatchingDims := [0, 2]
  startIndicesBatchingDims := [0, 2]
  startIndexMap := [1]
  indexVectorDim := 3
  sliceSizes := ![1, 1, 1]
  wf := wf

section Axes
variable {B K M Q w : Nat}
  (wf : GatherDims.WF ⟨3, ![B, K, M]⟩ ⟨4, ![B, Q, M, 1]⟩ ⟨3, ![B, Q, M]⟩ [] [1] [0, 2] [1] [0, 2] 3 ![1, 1, 1])
  (idx : IVec ⟨4, ![B, Q, M, 1]⟩ w) (b : Fin B) (q : Fin Q) (m : Fin M)

/-- On the first batching axis the operand coordinate is the result's first coordinate. -/
theorem operand_axis0 :
    (entryDims B K M Q wf).start (ix3 b q m) idx 0 + (entryDims B K M Q wf).batchCoord (ix3 b q m) 0
      + (entryDims B K M Q wf).offCoord (ix3 b q m) 0 = b.val := by
  rw [GatherDims.start_batching _ _ _ _ (List.mem_cons_self),
    GatherDims.offCoord_eq_zero _ _ _ (fun h => ((GatherDims.mem_sKept _ _).mp h).2 (List.mem_cons_self))]
  simp only [Nat.zero_add, Nat.add_zero]
  rfl

/-- On the collapsed axis it is the start index, read signed and clamped into the axis. -/
theorem operand_axis1 :
    (entryDims B K M Q wf).start (ix3 b q m) idx 1 + (entryDims B K M Q wf).batchCoord (ix3 b q m) 1
      + (entryDims B K M Q wf).offCoord (ix3 b q m) 1 = min (idx (ix4 b q m ⟨0, Nat.one_pos⟩)).toInt.toNat (K - 1) := by
  rw [GatherDims.batchCoord_eq_zero _ _ _ (show (1 : Fin 3) ∉ [0, 2] by decide),
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (entryDims B K M Q wf).startIndexMap from List.mem_singleton.mpr rfl)]
  have hsi : (entryDims B K M Q wf).siIdx (ix3 b q m) ⟨List.idxOf (1 : Fin 3) (entryDims B K M Q wf).startIndexMap,
      List.idxOf_lt_length_iff.2 (List.mem_singleton.mpr rfl)⟩ = ix4 b q m ⟨0, Nat.one_pos⟩ := by
    funext e; refine Fin.ext ?_
    match e with
    | ⟨0, _⟩ => rfl
    | ⟨1, _⟩ => rfl
    | ⟨2, _⟩ => rfl
    | ⟨3, _⟩ => rfl
  rw [hsi]
  rfl

/-- On the second batching axis it is the result's last coordinate. -/
theorem operand_axis2 :
    (entryDims B K M Q wf).start (ix3 b q m) idx 2 + (entryDims B K M Q wf).batchCoord (ix3 b q m) 2
      + (entryDims B K M Q wf).offCoord (ix3 b q m) 2 = m.val := by
  rw [GatherDims.start_batching _ _ _ _ (show (2 : Fin 3) ∈ [0, 2] by decide),
    GatherDims.offCoord_eq_zero _ _ _ (fun h => ((GatherDims.mem_sKept _ _).mp h).2 (show (2 : Fin 3) ∈ [0, 2] by decide))]
  simp only [Nat.zero_add, Nat.add_zero]
  rfl

end Axes

/-- THE GATHER READ AT `(b, q, m)`: the operand at `(b, idx[b, q, m, 0], m)`, the start index read signed and clamped
    into `[0, K − 1]`. -/
theorem gather_entries_apply {B K M Q w : Nat} (hK : 0 < K)
    (wf : GatherDims.WF ⟨3, ![B, K, M]⟩ ⟨4, ![B, Q, M, 1]⟩ ⟨3, ![B, Q, M]⟩ [] [1] [0, 2] [1] [0, 2] 3 ![1, 1, 1])
    (x : (⟨3, ![B, K, M]⟩ : Shape).Idx → α) (idx : IVec ⟨4, ![B, Q, M, 1]⟩ w) (b : Fin B) (q : Fin Q) (m : Fin M) :
    Host.gather (entryDims B K M Q wf) x idx (ix3 b q m)
      = x (ix3 b ⟨min (idx (ix4 b q m ⟨0, Nat.one_pos⟩)).toInt.toNat (K - 1), by omega⟩ m) := by
  unfold Host.gather
  congr 1
  funext a
  refine Fin.ext ?_
  match a with
  | ⟨0, _⟩ => exact operand_axis0 wf idx b q m
  | ⟨1, _⟩ => exact operand_axis1 wf idx b q m
  | ⟨2, _⟩ => exact operand_axis2 wf idx b q m

end Cert.LibGatherBatchedEntries

end
-- ==== Proof.LibGatherBatchedRows.lean ====
/-
  A batched row gather read at an index.

  `jnp.take_along_axis(x, idx[:, :, None], axis=1)` on an operand `x : [B, K, C]` with indices `idx : [B, Q, 1]` lowers to a
  `stablehlo.gather` whose operand axis 0 and start-indices axis 0 are BATCHING axes, whose operand axis 1 is collapsed and
  named by the start index map, and whose operand axis 2 is the one offset axis (slice sizes `[1, 1, C]`, index vector on
  axis 2 of the start indices).  Result element `(b, q, c)` is then the operand at batch `b`, at the row the start index
  `idx[b, q, 0]` names — read as a signed integer and clamped into `[0, K − 1]`, as StableHLO clamps every start index —,
  at column `c`.
-/
import Idealize.ShloMosaic.Lib.ValueIdx

noncomputable section

namespace Cert.LibGatherBatchedRows

open Idealize.ShloMosaic Idealize.ShloMosaic.ValueIdx

variable {α : Type}

/-- The dimension numbers of the batched row gather for an operand `[B, K, C]`, start indices `[B, Q, 1]` and a result
    `[B, Q, C]`; their well-formedness `wf` is decided on a program's literal shapes. -/
abbrev rowDims (B K C Q : Nat)
    (wf : GatherDims.WF ⟨3, ![B, K, C]⟩ ⟨3, ![B, Q, 1]⟩ ⟨3, ![B, Q, C]⟩ [2] [1] [0] [1] [0] 2 ![1, 1, C]) :
    GatherDims ⟨3, ![B, K, C]⟩ ⟨3, ![B, Q, 1]⟩ ⟨3, ![B, Q, C]⟩ where
  offsetDims := [2]
  collapsedSliceDims := [1]
  operandBatchingDims := [0]
  startIndicesBatchingDims := [0]
  startIndexMap := [1]
  indexVectorDim := 2
  sliceSizes := ![1, 1, C]
  wf := wf

section Axes
variable {B K C Q w : Nat}
  (wf : GatherDims.WF ⟨3, ![B, K, C]⟩ ⟨3, ![B, Q, 1]⟩ ⟨3, ![B, Q, C]⟩ [2] [1] [0] [1] [0] 2 ![1, 1, C])
  (idx : IVec ⟨3, ![B, Q, 1]⟩ w) (b : Fin B) (q : Fin Q) (c : Fin C)

/-- On the batching axis the operand coordinate is the result's batch coordinate. -/
theorem operand_axis0 :
    (rowDims B K C Q wf).start (ix3 b q c) idx 0 + (rowDims B K C Q wf).batchCoord (ix3 b q c) 0
      + (rowDims B K C Q wf).offCoord (ix3 b q c) 0 = b.val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  rfl

/-- On the collapsed axis it is the start index, read signed and clamped into the axis. -/
theorem operand_axis1 :
    (rowDims B K C Q wf).start (ix3 b q c) idx 1 + (rowDims B K C Q wf).batchCoord (ix3 b q c) 1
      + (rowDims B K C Q wf).offCoord (ix3 b q c) 1 = min (idx (ix3 b q ⟨0, Nat.one_pos⟩)).toInt.toNat (K - 1) := by
  rw [GatherDims.batchCoord_eq_zero _ _ _ (fun h => absurd (Fin.val_eq_of_eq (List.mem_singleton.mp h)) (show ¬ (1 : ℕ) = 0 by omega)),
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (rowDims B K C Q wf).startIndexMap from List.mem_singleton.mpr rfl)]
  have hsi : (rowDims B K C Q wf).siIdx (ix3 b q c) ⟨List.idxOf (1 : Fin 3) (rowDims B K C Q wf).startIndexMap,
      List.idxOf_lt_length_iff.2 (List.mem_singleton.mpr rfl)⟩ = ix3 b q ⟨0, Nat.one_pos⟩ := by
    funext e; refine Fin.ext ?_
    match e with
    | ⟨0, _⟩ => rfl
    | ⟨1, _⟩ => rfl
    | ⟨2, _⟩ => rfl
  rw [hsi]
  rfl

/-- On the offset axis it is the result's column. -/
theorem operand_axis2 :
    (rowDims B K C Q wf).start (ix3 b q c) idx 2 + (rowDims B K C Q wf).batchCoord (ix3 b q c) 2
      + (rowDims B K C Q wf).offCoord (ix3 b q c) 2 = c.val := by
  rw [GatherDims.batchCoord_eq_zero _ _ _ (fun h => absurd (Fin.val_eq_of_eq (List.mem_singleton.mp h)) (show ¬ (2 : ℕ) = 0 by omega))]
  unfold GatherDims.start
  rw [dif_neg (fun h => absurd (Fin.val_eq_of_eq (List.mem_singleton.mp h)) (show ¬ (2 : ℕ) = 1 by omega))]
  simp only [Nat.zero_add]
  rfl

end Axes

/-- THE GATHER READ AT `(b, q, c)`: the operand at batch `b`, row `idx[b, q, 0]` (signed, clamped into `[0, K − 1]`),
    column `c`. -/
theorem gather_rows_apply {B K C Q w : Nat} (hK : 0 < K)
    (wf : GatherDims.WF ⟨3, ![B, K, C]⟩ ⟨3, ![B, Q, 1]⟩ ⟨3, ![B, Q, C]⟩ [2] [1] [0] [1] [0] 2 ![1, 1, C])
    (x : (⟨3, ![B, K, C]⟩ : Shape).Idx → α) (idx : IVec ⟨3, ![B, Q, 1]⟩ w) (b : Fin B) (q : Fin Q) (c : Fin C) :
    Host.gather (rowDims B K C Q wf) x idx (ix3 b q c)
      = x (ix3 b ⟨min (idx (ix3 b q ⟨0, Nat.one_pos⟩)).toInt.toNat (K - 1), by omega⟩ c) := by
  unfold Host.gather
  congr 1
  funext a
  refine Fin.ext ?_
  match a with
  | ⟨0, _⟩ => exact operand_axis0 wf idx b q c
  | ⟨1, _⟩ => exact operand_axis1 wf idx b q c
  | ⟨2, _⟩ => exact operand_axis2 wf idx b q c

end Cert.LibGatherBatchedRows

end
-- ==== Proof.LibReduceAndUnitAxis.lean ====
/-
  A reduction by `and` over one axis of size one, read at an index.

  `jnp.take_along_axis` checks that each start index is in range by reducing, with `and` from the constant `true`, the
  range test over the index vector's axis.  When the index vector has one component that axis has size one, the fold
  meets exactly one operand element, and `x and true = x`: the reduction at a result index is the operand at the one
  index that drops to it.  Stated for any shapes and any single reduced axis of size one; then spelt out for the last
  axis of a rank-3 and of a rank-4 array.
-/
import Idealize.ShloMosaic.PureOps.Reduce
import Idealize.ShloMosaic.Lib.ValueIdx

noncomputable section

namespace Cert.LibReduceAndUnitAxis

open Idealize.ShloMosaic Idealize.ShloMosaic.ValueIdx

/-- On one bit, `x and 1 = x`. -/
theorem andi_one (v : BitVec 1) : IntOp.andi v 1#1 = v := by revert v; decide

variable {s t u : Shape} {a : Fin s.rank}

/-- THE REDUCTION READ AT THE INDEX `i` DROPS TO: a `stablehlo.reduce` by `and`, from an initial value 1, over the one
    axis `a` of size 1, is at `drop i` the operand's element at `i`. -/
theorem reduce_andi_unit_axis (x : s.Idx → BitVec 1) (init : u.Idx → BitVec 1) (h' : s.ReducesTo [a] t) (ht : 0 < t.rank)
    (hu : 0 < u.numel) (hinit : init (Shape.Idx.first hu) = 1#1) (ha : s.size a = 1) (i : s.Idx) :
    Host.reduce IntOp.andi x init h' hu (h'.drop i) = x i := by
  have h : s.Reduces [a] t := ⟨h'.1, ht, h'.2⟩
  rw [Host.reduce_eq_fold_single IntOp.andi x init h' h hu, hinit]
  have huniv : (Finset.univ : Finset (Fin (s.size a))) = {i a} := by
    ext k
    simp only [Finset.mem_univ, Finset.mem_singleton, true_iff]
    exact Fin.ext (by have := k.isLt; have := (i a).isLt; omega)
  rw [huniv, Finset.fold_singleton, Function.comp_apply]
  show IntOp.andi (x (h.lift (h.drop i) (i a))) 1#1 = x i
  rw [h.lift_drop, andi_one]

/-- The last axis of a rank-3 array `[B, Q, 1]`: the reduction at `(b, q)` is the operand at `(b, q, 0)`. -/
theorem reduce_andi_last_of3 {B Q : Nat} (x : IVec ⟨3, ![B, Q, 1]⟩ 1) (init : u.Idx → BitVec 1)
    (h' : (⟨3, ![B, Q, 1]⟩ : Shape).ReducesTo [2] ⟨2, ![B, Q]⟩) (hu : 0 < u.numel)
    (hinit : init (Shape.Idx.first hu) = 1#1) (b : Fin B) (q : Fin Q) :
    Host.reduce IntOp.andi x init h' hu (ix2 b q) = x (ix3 b q ⟨0, Nat.one_pos⟩) := by
  have e : h'.drop (ix3 b q ⟨0, Nat.one_pos⟩) = ix2 b q := by
    funext c
    match c with
    | ⟨0, _⟩ => rfl
    | ⟨1, _⟩ => rfl
  rw [← e]
  exact reduce_andi_unit_axis x init h' (Nat.succ_pos _) hu hinit rfl _

/-- The last axis of a rank-4 array `[B, Q, M, 1]`: the reduction at `(b, q, m)` is the operand at `(b, q, m, 0)`. -/
theorem reduce_andi_last_of4 {B Q M : Nat} (x : IVec ⟨4, ![B, Q, M, 1]⟩ 1) (init : u.Idx → BitVec 1)
    (h' : (⟨4, ![B, Q, M, 1]⟩ : Shape).ReducesTo [3] ⟨3, ![B, Q, M]⟩) (hu : 0 < u.numel)
    (hinit : init (Shape.Idx.first hu) = 1#1) (b : Fin B) (q : Fin Q) (m : Fin M) :
    Host.reduce IntOp.andi x init h' hu (ix3 b q m) = x (ix4 b q m ⟨0, Nat.one_pos⟩) := by
  have e : h'.drop (ix4 b q m ⟨0, Nat.one_pos⟩) = ix3 b q m := by
    funext c
    match c with
    | ⟨0, _⟩ => rfl
    | ⟨1, _⟩ => rfl
    | ⟨2, _⟩ => rfl
  rw [← e]
  exact reduce_andi_unit_axis x init h' (Nat.succ_pos _) hu hinit rfl _

end Cert.LibReduceAndUnitAxis

end
-- ==== Proof.LibTakeIndexWords.lean ====
/-
  The words `jnp.take_along_axis` computes around a gather, for a start index already in range.

  Before it gathers along an axis of size `n`, `take_along_axis` (i) wraps a negative index once, `select (x < 0) (x + n) x`,
  (ii) tests the wrapped index for `0 ≤ x ∧ x ≤ n − 1` (signed) to choose between the gathered element and a fill value,
  and (iii) the gather itself clamps the index, read as a signed integer, into `[0, n − 1]`.  For a 32-bit word whose
  unsigned value is at most `k = n − 1 < 2³¹` all three do nothing: the word is not negative, the test is 1, and the clamped
  position is the word's value.
-/
import Idealize.ShloMosaic.Lib.StableHlo.Predicate
import Idealize.ShloMosaic.Lib.ValueIdx

noncomputable section

namespace Cert.LibTakeIndexWords

open Idealize.ShloMosaic Idealize.ShloMosaic.ValueIdx Idealize.ShloMosaic.StableHlo.Predicate

/-- A word below 2³¹ is not negative: the signed test `x < 0` is the bit 0. -/
theorem slt_zero_of_lt (x : BitVec 32) (hx : x.toNat < 2 ^ 31) : IntOp.cmpi .slt x 0#32 = 0#1 := by
  refine eq_zero_of_ne_one fun h => ?_
  have := (slt_iff_toNat hx (by decide)).1 h
  simp at this

/-- (i) The wrap of a negative index leaves a word below 2³¹ alone, whatever is added. -/
theorem wrap_of_lt (x n : BitVec 32) (hx : x.toNat < 2 ^ 31) :
    Scalar.select (IntOp.cmpi .slt x 0#32) (IntOp.addi x n) x = x := by
  rw [slt_zero_of_lt x hx, select_zero]

/-- (ii) The range test `0 ≤ x ∧ x ≤ k` is the bit 1 on a word whose value is at most `k < 2³¹`. -/
theorem inRange_of_le (x : BitVec 32) (k : ℕ) (hk : k < 2 ^ 31) (hx : x.toNat ≤ k) :
    IntOp.andi (IntOp.cmpi .sge x 0#32) (IntOp.cmpi .sle x (BitVec.ofNat 32 k)) = 1#1 := by
  have hk' : (BitVec.ofNat 32 k).toNat = k := by rw [BitVec.toNat_ofNat]; exact Nat.mod_eq_of_lt (by omega)
  have h1 : IntOp.cmpi .sge x 0#32 = 1#1 := (sge_iff_toNat (by omega) (by decide)).2 (Nat.zero_le _)
  have h2 : IntOp.cmpi .sle x (BitVec.ofNat 32 k) = 1#1 := (sle_iff_toNat (by omega) (by omega)).2 (by omega)
  rw [h1, h2]; rfl

/-- (iii) The gather's clamp of the signed reading into `[0, k]` is the word's value when that is at most `k < 2³¹`. -/
theorem clamp_of_le (x : BitVec 32) (k : ℕ) (hk : k < 2 ^ 31) (hx : x.toNat ≤ k) : min x.toInt.toNat k = x.toNat := by
  have hc := BitVec.toInt_eq_toNat_cond x
  have hl := x.isLt
  split at hc <;> omega

end Cert.LibTakeIndexWords

end
-- ==== Proof.RefRows.lean ====
/-
  The reference's two gathers under the index ranges: the hidden row of mention `mm` of the entity pair `p` names on
  side 0 (head) and side 1 (tail).

  Each side runs two `take_along_axis` calls.  The first reads the table of mention positions at the entity index of
  the pair (one column of the pair table, broadcast over the four mentions); the second reads the hidden states at the
  positions found, flattened to one column of 4096 rows per batch (row `4 p + mm`).  A call wraps a negative index,
  tests the index for its range, gathers with the index clamped, and selects a fill value where the test fails.  Under
  the ranges (entity indices below 32, positions below 2048) the wrap and the clamp do nothing and the test is 1, so
  the entry at (b, p, mm, h) is the hidden state of batch b at the position of mention mm of the entity, at feature h.
-/
import proofs.«411475_j52836687675513_2_alg».proof.Proof.RefRead
import proofs.«411475_j52836687675513_2_alg».proof.Proof.Spec
import proofs.«411475_j52836687675513_2_alg».proof.Proof.LibGatherBatchedEntries
import proofs.«411475_j52836687675513_2_alg».proof.Proof.LibGatherBatchedRows
import proofs.«411475_j52836687675513_2_alg».proof.Proof.LibReduceAndUnitAxis
import proofs.«411475_j52836687675513_2_alg».proof.Proof.LibTakeIndexWords

noncomputable section

open scoped BigOperators

namespace Cert.Bridge

open Idealize.ShloMosaic Idealize.ShloMosaic.ValueIdx Cert.ReferenceIdeal Cert.ReferenceIdeal.Gen
open Cert.LibTakeIndexWords Cert.LibReduceAndUnitAxis Cert.LibGatherBatchedEntries Cert.LibGatherBatchedRows

/-- Row `4 p + mm` of the flattened (pair, mention) axis. -/
def pmRow (p : Fin 1024) (mm : Fin 4) : Fin 4096 := ⟨p.val * 4 + mm.val, by omega⟩

/-! ## The head side -/

/-- The head column, broadcast over the mentions: at (b, p, mm) it is the head index of pair p. -/
theorem head_bcast (A : Args) (b : Fin 8) (p : Fin 1024) (mm : Fin 4) :
    ReadP.val_main_v3 (F := Ideal) A.hti (ix3 b p mm) = A.hti (ix3 b p 0) := by
  rw [ReadP.val_main_v3_apply, ReadP.val_main_v2_apply, ReadP.val_main_v1_apply, ReadP.val_main_v0_apply]
  congr 1
  funext a
  have hb := b.isLt
  have hp := p.isLt
  match a with
  | ⟨0, _⟩ => exact Fin.ext (by show (b.val * 1024 + p.val) / 1024 = b.val; omega)
  | ⟨1, _⟩ => exact Fin.ext (by show (b.val * 1024 + p.val) / 1 % 1024 = p.val; omega)
  | ⟨2, _⟩ => rfl

/-- The head index after the wrap of negatives: unchanged, since it is below 32. -/
theorem head_wrapped (A : Args) (hr : InRange A) (b : Fin 8) (p : Fin 1024) (mm : Fin 4) :
    ReadP.val_main_call0_v4 (F := Ideal) A.hti (ix3 b p mm) = A.hti (ix3 b p 0) := by
  have hlt := hr.hti_lt (ix3 b p 0)
  rw [ReadP.val_main_call0_v4_apply, ReadP.val_main_call0_v1_apply, ReadP.val_main_call0_v0_apply,
    ReadP.val_main_call0_c_apply, ReadP.val_main_call0_v3_apply, head_bcast]
  exact wrap_of_lt _ _ (by omega)

/-- The same word as the one component of the start index at (b, p, mm, 0). -/
theorem head_start (A : Args) (hr : InRange A) (b : Fin 8) (p : Fin 1024) (mm : Fin 4) :
    ReadP.val_main_call0_v5 (F := Ideal) A.hti (ix4 b p mm ⟨0, Nat.one_pos⟩) = A.hti (ix3 b p 0) := by
  rw [ReadP.val_main_call0_v5_apply, ← head_wrapped A hr b p mm]
  congr 1
  funext a
  have hb := b.isLt
  have hp := p.isLt
  have hm := mm.isLt
  match a with
  | ⟨0, _⟩ => exact Fin.ext (by show (((b.val * 1024 + p.val) * 4 + mm.val) * 1 + 0) / 4096 = b.val; omega)
  | ⟨1, _⟩ => exact Fin.ext (by show (((b.val * 1024 + p.val) * 4 + mm.val) * 1 + 0) / 4 % 1024 = p.val; omega)
  | ⟨2, _⟩ => exact Fin.ext (by show (((b.val * 1024 + p.val) * 4 + mm.val) * 1 + 0) % 4 = mm.val; omega)

/-- The head index passes the range test of the first gather. -/
theorem head_mask (A : Args) (hr : InRange A) (b : Fin 8) (p : Fin 1024) (mm : Fin 4) :
    ReadP.val_main_call0_v12 (F := Ideal) A.hti (ix3 b p mm) = 1#1 := by
  have hlt := hr.hti_lt (ix3 b p 0)
  unfold ReadP.val_main_call0_v12
  rw [reduce_andi_last_of4 _ _ _ _ rfl b p mm, ReadP.val_main_call0_v11_apply, ReadP.val_main_call0_v7_apply,
    ReadP.val_main_call0_v10_apply, ReadP.val_main_call0_v6_apply, ReadP.val_main_call0_c_2_apply,
    ReadP.val_main_call0_v9_apply, ReadP.val_main_call0_v8_apply, ReadP.val_main_call0_c_1_apply, head_start A hr]
  exact inRange_of_le _ 31 (by norm_num) (by omega)

/-- The first gather reads the mention-position table at the head entity. -/
theorem head_gather (A : Args) (hr : InRange A) (b : Fin 8) (p : Fin 1024) (mm : Fin 4) :
    ReadP.val_main_call0_v13 (F := Ideal) A.epi A.hti (ix3 b p mm) = A.epi (ix3 b (ent A b p 0) mm) := by
  have hlt := hr.hti_lt (ix3 b p 0)
  unfold ReadP.val_main_call0_v13
  refine (gather_entries_apply (B := 8) (K := 32) (M := 4) (Q := 1024) (by norm_num)
    gather_S8x32x4_S8x1024x4x1_S8x1024x4_n_1_02_02_1_3_111_wf A.epi _ b p mm).trans ?_
  congr 1
  funext a
  match a with
  | ⟨0, _⟩ => rfl
  | ⟨1, _⟩ =>
    refine Fin.ext ?_
    show min (ReadP.val_main_call0_v5 (F := Ideal) A.hti (ix4 b p mm ⟨0, Nat.one_pos⟩)).toInt.toNat (32 - 1)
      = min (A.hti (ix3 b p 0)).toNat 31
    rw [head_start A hr, clamp_of_le _ 31 (by norm_num) (by omega)]
    omega
  | ⟨2, _⟩ => rfl

/-- The positions of the head entity's mentions. -/
theorem head_pos (A : Args) (hr : InRange A) (b : Fin 8) (p : Fin 1024) (mm : Fin 4) :
    ReadP.val_main_v4 (F := Ideal) A.epi A.hti (ix3 b p mm) = A.epi (ix3 b (ent A b p 0) mm) := by
  rw [ReadP.val_main_v4_apply, head_mask A hr, select_one, head_gather A hr]

/-- The positions flattened to one column: row `4 p + mm` holds the position of mention mm of the head entity. -/
theorem head_pos_flat (A : Args) (hr : InRange A) (b : Fin 8) (p : Fin 1024) (mm : Fin 4) :
    ReadP.val_main_v5 (F := Ideal) A.epi A.hti (ix3 b (pmRow p mm) ⟨0, Nat.one_pos⟩) = A.epi (ix3 b (ent A b p 0) mm) := by
  rw [ReadP.val_main_v5_apply, ← head_pos A hr b p mm]
  congr 1
  funext a
  have hb := b.isLt
  have hp := p.isLt
  have hm := mm.isLt
  match a with
  | ⟨0, _⟩ => exact Fin.ext (by show ((b.val * 4096 + (p.val * 4 + mm.val)) * 1 + 0) / 4096 = b.val; omega)
  | ⟨1, _⟩ => exact Fin.ext (by show ((b.val * 4096 + (p.val * 4 + mm.val)) * 1 + 0) / 4 % 1024 = p.val; omega)
  | ⟨2, _⟩ => exact Fin.ext (by show ((b.val * 4096 + (p.val * 4 + mm.val)) * 1 + 0) % 4 = mm.val; omega)

/-- The position after the wrap of negatives: unchanged, since it is below 2048. -/
theorem head_pos_wrapped (A : Args) (hr : InRange A) (b : Fin 8) (p : Fin 1024) (mm : Fin 4) :
    ReadP.val_main_call1_v4 (F := Ideal) A.epi A.hti (ix3 b (pmRow p mm) ⟨0, Nat.one_pos⟩)
      = A.epi (ix3 b (ent A b p 0) mm) := by
  have hlt := hr.epi_lt (ix3 b (ent A b p 0) mm)
  rw [ReadP.val_main_call1_v4_apply, ReadP.val_main_call1_v1_apply, ReadP.val_main_call1_v0_apply,
    ReadP.val_main_call1_c_apply, ReadP.val_main_call1_v3_apply, head_pos_flat A hr]
  exact wrap_of_lt _ _ (by omega)

/-- The position passes the range test of the second gather. -/
theorem head_pos_mask (A : Args) (hr : InRange A) (b : Fin 8) (p : Fin 1024) (mm : Fin 4) :
    ReadP.val_main_call1_v11 (F := Ideal) A.epi A.hti (ix2 b (pmRow p mm)) = 1#1 := by
  have hlt := hr.epi_lt (ix3 b (ent A b p 0) mm)
  unfold ReadP.val_main_call1_v11
  rw [reduce_andi_last_of3 _ _ _ _ rfl b (pmRow p mm), ReadP.val_main_call1_v10_apply, ReadP.val_main_call1_v6_apply,
    ReadP.val_main_call1_v9_apply, ReadP.val_main_call1_v5_apply, ReadP.val_main_call1_c_2_apply,
    ReadP.val_main_call1_v8_apply, ReadP.val_main_call1_v7_apply, ReadP.val_main_call1_c_1_apply,
    head_pos_wrapped A hr]
  exact inRange_of_le _ 2047 (by norm_num) (by omega)

/-- The second gather reads the hidden states at that position. -/
theorem head_row_gather (A : Args) (hr : InRange A) (b : Fin 8) (p : Fin 1024) (mm : Fin 4) (h : Fin 1024) :
    ReadP.val_main_call1_v12 (F := Ideal) A.hs A.epi A.hti (ix3 b (pmRow p mm) h)
      = A.hs (ix3 b (pos A b (ent A b p 0) mm) h) := by
  have hlt := hr.epi_lt (ix3 b (ent A b p 0) mm)
  unfold ReadP.val_main_call1_v12
  have e : gather_S8x2048x1024_S8x4096x1_S8x4096x1024_2_1_0_0_1_2_111024
      = rowDims 8 2048 1024 4096 gather_S8x2048x1024_S8x4096x1_S8x4096x1024_2_1_0_0_1_2_111024_wf := rfl
  rw [e, gather_rows_apply (by norm_num) _ A.hs _ b (pmRow p mm) h]
  have hpos : (⟨min (ReadP.val_main_call1_v4 (F := Ideal) A.epi A.hti (ix3 b (pmRow p mm) ⟨0, Nat.one_pos⟩)).toInt.toNat (2048 - 1),
      by omega⟩ : Fin 2048) = pos A b (ent A b p 0) mm := by
    refine Fin.ext ?_
    show min (ReadP.val_main_call1_v4 (F := Ideal) A.epi A.hti (ix3 b (pmRow p mm) ⟨0, Nat.one_pos⟩)).toInt.toNat (2048 - 1)
      = min (A.epi (ix3 b (ent A b p 0) mm)).toNat 2047
    rw [head_pos_wrapped A hr, clamp_of_le _ 2047 (by norm_num) (by omega)]
    omega
  exact congrArg (fun k => A.hs (ix3 b k h)) hpos

/-- The gathered rows before the last reshape. -/
theorem head_rows_flat (A : Args) (hr : InRange A) (b : Fin 8) (p : Fin 1024) (mm : Fin 4) (h : Fin 1024) :
    ReadP.val_main_v6 (F := Ideal) A.hs A.epi A.hti (ix3 b (pmRow p mm) h) = A.hs (ix3 b (pos A b (ent A b p 0) mm) h) := by
  have hmask : ReadP.val_main_call1_v13 (F := Ideal) A.epi A.hti (ix3 b (pmRow p mm) h) = 1#1 := by
    rw [ReadP.val_main_call1_v13_apply, ← head_pos_mask A hr b p mm]
    congr 1
    funext a
    match a with
    | ⟨0, _⟩ => rfl
    | ⟨1, _⟩ => rfl
  rw [ReadP.val_main_v6_apply, hmask, select_one, head_row_gather A hr]

/-- The head side: entry (b, p, mm, h) of the gathered rows is the hidden state of batch b at the position of mention
    mm of the head entity of pair p. -/
theorem rows0 (A : Args) (hr : InRange A) (b : Fin 8) (p : Fin 1024) (mm : Fin 4) (h : Fin 1024) :
    Cert.ReferenceIdeal.ReadP.val_main_v7 (F := Ideal) A.hs A.epi A.hti (ix4 b p mm h)
      = A.hs (ix3 b (pos A b (ent A b p 0) mm) h) := by
  rw [ReadP.val_main_v7_apply, ← head_rows_flat A hr b p mm h]
  congr 1
  funext a
  have hb := b.isLt
  have hp := p.isLt
  have hm := mm.isLt
  have hh := h.isLt
  match a with
  | ⟨0, _⟩ => exact Fin.ext (by show (((b.val * 1024 + p.val) * 4 + mm.val) * 1024 + h.val) / 4194304 = b.val; omega)
  | ⟨1, _⟩ => exact Fin.ext (by show (((b.val * 1024 + p.val) * 4 + mm.val) * 1024 + h.val) / 1024 % 4096 = p.val * 4 + mm.val; omega)
  | ⟨2, _⟩ => exact Fin.ext (by show (((b.val * 1024 + p.val) * 4 + mm.val) * 1024 + h.val) % 1024 = h.val; omega)

/-! ## The tail side -/

/-- The tail column, broadcast over the mentions: at (b, p, mm) it is the tail index of pair p. -/
theorem tail_bcast (A : Args) (b : Fin 8) (p : Fin 1024) (mm : Fin 4) :
    ReadP.val_main_v12 (F := Ideal) A.hti (ix3 b p mm) = A.hti (ix3 b p 1) := by
  rw [ReadP.val_main_v12_apply, ReadP.val_main_v11_apply, ReadP.val_main_v10_apply, ReadP.val_main_v9_apply]
  congr 1
  funext a
  have hb := b.isLt
  have hp := p.isLt
  match a with
  | ⟨0, _⟩ => exact Fin.ext (by show (b.val * 1024 + p.val) / 1024 = b.val; omega)
  | ⟨1, _⟩ => exact Fin.ext (by show (b.val * 1024 + p.val) / 1 % 1024 = p.val; omega)
  | ⟨2, _⟩ => rfl

/-- The tail index after the wrap of negatives: unchanged, since it is below 32. -/
theorem tail_wrapped (A : Args) (hr : InRange A) (b : Fin 8) (p : Fin 1024) (mm : Fin 4) :
    ReadP.val_main_call2_v4 (F := Ideal) A.hti (ix3 b p mm) = A.hti (ix3 b p 1) := by
  have hlt := hr.hti_lt (ix3 b p 1)
  rw [ReadP.val_main_call2_v4_apply, ReadP.val_main_call2_v1_apply, ReadP.val_main_call2_v0_apply,
    ReadP.val_main_call2_c_apply, ReadP.val_main_call2_v3_apply, tail_bcast]
  exact wrap_of_lt _ _ (by omega)

/-- The same word as the one component of the start index at (b, p, mm, 0). -/
theorem tail_start (A : Args) (hr : InRange A) (b : Fin 8) (p : Fin 1024) (mm : Fin 4) :
    ReadP.val_main_call2_v5 (F := Ideal) A.hti (ix4 b p mm ⟨0, Nat.one_pos⟩) = A.hti (ix3 b p 1) := by
  rw [ReadP.val_main_call2_v5_apply, ← tail_wrapped A hr b p mm]
  congr 1
  funext a
  have hb := b.isLt
  have hp := p.isLt
  have hm := mm.isLt
  match a with
  | ⟨0, _⟩ => exact Fin.ext (by show (((b.val * 1024 + p.val) * 4 + mm.val) * 1 + 0) / 4096 = b.val; omega)
  | ⟨1, _⟩ => exact Fin.ext (by show (((b.val * 1024 + p.val) * 4 + mm.val) * 1 + 0) / 4 % 1024 = p.val; omega)
  | ⟨2, _⟩ => exact Fin.ext (by show (((b.val * 1024 + p.val) * 4 + mm.val) * 1 + 0) % 4 = mm.val; omega)

/-- The tail index passes the range test of the first gather. -/
theorem tail_mask (A : Args) (hr : InRange A) (b : Fin 8) (p : Fin 1024) (mm : Fin 4) :
    ReadP.val_main_call2_v12 (F := Ideal) A.hti (ix3 b p mm) = 1#1 := by
  have hlt := hr.hti_lt (ix3 b p 1)
  unfold ReadP.val_main_call2_v12
  rw [reduce_andi_last_of4 _ _ _ _ rfl b p mm, ReadP.val_main_call2_v11_apply, ReadP.val_main_call2_v7_apply,
    ReadP.val_main_call2_v10_apply, ReadP.val_main_call2_v6_apply, ReadP.val_main_call2_c_2_apply,
    ReadP.val_main_call2_v9_apply, ReadP.val_main_call2_v8_apply, ReadP.val_main_call2_c_1_apply, tail_start A hr]
  exact inRange_of_le _ 31 (by norm_num) (by omega)

/-- The first gather reads the mention-position table at the tail entity. -/
theorem tail_gather (A : Args) (hr : InRange A) (b : Fin 8) (p : Fin 1024) (mm : Fin 4) :
    ReadP.val_main_call2_v13 (F := Ideal) A.epi A.hti (ix3 b p mm) = A.epi (ix3 b (ent A b p 1) mm) := by
  have hlt := hr.hti_lt (ix3 b p 1)
  unfold ReadP.val_main_call2_v13
  refine (gather_entries_apply (B := 8) (K := 32) (M := 4) (Q := 1024) (by norm_num)
    gather_S8x32x4_S8x1024x4x1_S8x1024x4_n_1_02_02_1_3_111_wf A.epi _ b p mm).trans ?_
  congr 1
  funext a
  match a with
  | ⟨0, _⟩ => rfl
  | ⟨1, _⟩ =>
    refine Fin.ext ?_
    show min (ReadP.val_main_call2_v5 (F := Ideal) A.hti (ix4 b p mm ⟨0, Nat.one_pos⟩)).toInt.toNat (32 - 1)
      = min (A.hti (ix3 b p 1)).toNat 31
    rw [tail_start A hr, clamp_of_le _ 31 (by norm_num) (by omega)]
    omega
  | ⟨2, _⟩ => rfl

/-- The positions of the tail entity's mentions. -/
theorem tail_pos (A : Args) (hr : InRange A) (b : Fin 8) (p : Fin 1024) (mm : Fin 4) :
    ReadP.val_main_v13 (F := Ideal) A.epi A.hti (ix3 b p mm) = A.epi (ix3 b (ent A b p 1) mm) := by
  rw [ReadP.val_main_v13_apply, tail_mask A hr, select_one, tail_gather A hr]

/-- The positions flattened to one column: row `4 p + mm` holds the position of mention mm of the tail entity. -/
theorem tail_pos_flat (A : Args) (hr : InRange A) (b : Fin 8) (p : Fin 1024) (mm : Fin 4) :
    ReadP.val_main_v14 (F := Ideal) A.epi A.hti (ix3 b (pmRow p mm) ⟨0, Nat.one_pos⟩) = A.epi (ix3 b (ent A b p 1) mm) := by
  rw [ReadP.val_main_v14_apply, ← tail_pos A hr b p mm]
  congr 1
  funext a
  have hb := b.isLt
  have hp := p.isLt
  have hm := mm.isLt
  match a with
  | ⟨0, _⟩ => exact Fin.ext (by show ((b.val * 4096 + (p.val * 4 + mm.val)) * 1 + 0) / 4096 = b.val; omega)
  | ⟨1, _⟩ => exact Fin.ext (by show ((b.val * 4096 + (p.val * 4 + mm.val)) * 1 + 0) / 4 % 1024 = p.val; omega)
  | ⟨2, _⟩ => exact Fin.ext (by show ((b.val * 4096 + (p.val * 4 + mm.val)) * 1 + 0) % 4 = mm.val; omega)

/-- The position after the wrap of negatives: unchanged, since it is below 2048. -/
theorem tail_pos_wrapped (A : Args) (hr : InRange A) (b : Fin 8) (p : Fin 1024) (mm : Fin 4) :
    ReadP.val_main_call3_v4 (F := Ideal) A.epi A.hti (ix3 b (pmRow p mm) ⟨0, Nat.one_pos⟩)
      = A.epi (ix3 b (ent A b p 1) mm) := by
  have hlt := hr.epi_lt (ix3 b (ent A b p 1) mm)
  rw [ReadP.val_main_call3_v4_apply, ReadP.val_main_call3_v1_apply, ReadP.val_main_call3_v0_apply,
    ReadP.val_main_call3_c_apply, ReadP.val_main_call3_v3_apply, tail_pos_flat A hr]
  exact wrap_of_lt _ _ (by omega)

/-- The position passes the range test of the second gather. -/
theorem tail_pos_mask (A : Args) (hr : InRange A) (b : Fin 8) (p : Fin 1024) (mm : Fin 4) :
    ReadP.val_main_call3_v11 (F := Ideal) A.epi A.hti (ix2 b (pmRow p mm)) = 1#1 := by
  have hlt := hr.epi_lt (ix3 b (ent A b p 1) mm)
  unfold ReadP.val_main_call3_v11
  rw [reduce_andi_last_of3 _ _ _ _ rfl b (pmRow p mm), ReadP.val_main_call3_v10_apply, ReadP.val_main_call3_v6_apply,
    ReadP.val_main_call3_v9_apply, ReadP.val_main_call3_v5_apply, ReadP.val_main_call3_c_2_apply,
    ReadP.val_main_call3_v8_apply, ReadP.val_main_call3_v7_apply, ReadP.val_main_call3_c_1_apply,
    tail_pos_wrapped A hr]
  exact inRange_of_le _ 2047 (by norm_num) (by omega)

/-- The second gather reads the hidden states at that position. -/
theorem tail_row_gather (A : Args) (hr : InRange A) (b : Fin 8) (p : Fin 1024) (mm : Fin 4) (h : Fin 1024) :
    ReadP.val_main_call3_v12 (F := Ideal) A.hs A.epi A.hti (ix3 b (pmRow p mm) h)
      = A.hs (ix3 b (pos A b (ent A b p 1) mm) h) := by
  have hlt := hr.epi_lt (ix3 b (ent A b p 1) mm)
  unfold ReadP.val_main_call3_v12
  have e : gather_S8x2048x1024_S8x4096x1_S8x4096x1024_2_1_0_0_1_2_111024
      = rowDims 8 2048 1024 4096 gather_S8x2048x1024_S8x4096x1_S8x4096x1024_2_1_0_0_1_2_111024_wf := rfl
  rw [e, gather_rows_apply (by norm_num) _ A.hs _ b (pmRow p mm) h]
  have hpos : (⟨min (ReadP.val_main_call3_v4 (F := Ideal) A.epi A.hti (ix3 b (pmRow p mm) ⟨0, Nat.one_pos⟩)).toInt.toNat (2048 - 1),
      by omega⟩ : Fin 2048) = pos A b (ent A b p 1) mm := by
    refine Fin.ext ?_
    show min (ReadP.val_main_call3_v4 (F := Ideal) A.epi A.hti (ix3 b (pmRow p mm) ⟨0, Nat.one_pos⟩)).toInt.toNat (2048 - 1)
      = min (A.epi (ix3 b (ent A b p 1) mm)).toNat 2047
    rw [tail_pos_wrapped A hr, clamp_of_le _ 2047 (by norm_num) (by omega)]
    omega
  exact congrArg (fun k => A.hs (ix3 b k h)) hpos

/-- The gathered rows before the last reshape. -/
theorem tail_rows_flat (A : Args) (hr : InRange A) (b : Fin 8) (p : Fin 1024) (mm : Fin 4) (h : Fin 1024) :
    ReadP.val_main_v15 (F := Ideal) A.hs A.epi A.hti (ix3 b (pmRow p mm) h) = A.hs (ix3 b (pos A b (ent A b p 1) mm) h) := by
  have hmask : ReadP.val_main_call3_v13 (F := Ideal) A.epi A.hti (ix3 b (pmRow p mm) h) = 1#1 := by
    rw [ReadP.val_main_call3_v13_apply, ← tail_pos_mask A hr b p mm]
    congr 1
    funext a
    match a with
    | ⟨0, _⟩ => rfl
    | ⟨1, _⟩ => rfl
  rw [ReadP.val_main_v15_apply, hmask, select_one, tail_row_gather A hr]

/-- The tail side: entry (b, p, mm, h) of the gathered rows is the hidden state of batch b at the position of mention
    mm of the tail entity of pair p. -/
theorem rows1 (A : Args) (hr : InRange A) (b : Fin 8) (p : Fin 1024) (mm : Fin 4) (h : Fin 1024) :
    Cert.ReferenceIdeal.ReadP.val_main_v16 (F := Ideal) A.hs A.epi A.hti (ix4 b p mm h)
      = A.hs (ix3 b (pos A b (ent A b p 1) mm) h) := by
  rw [ReadP.val_main_v16_apply, ← tail_rows_flat A hr b p mm h]
  congr 1
  funext a
  have hb := b.isLt
  have hp := p.isLt
  have hm := mm.isLt
  have hh := h.isLt
  match a with
  | ⟨0, _⟩ => exact Fin.ext (by show (((b.val * 1024 + p.val) * 4 + mm.val) * 1024 + h.val) / 4194304 = b.val; omega)
  | ⟨1, _⟩ => exact Fin.ext (by show (((b.val * 1024 + p.val) * 4 + mm.val) * 1024 + h.val) / 1024 % 4096 = p.val * 4 + mm.val; omega)
  | ⟨2, _⟩ => exact Fin.ext (by show (((b.val * 1024 + p.val) * 4 + mm.val) * 1024 + h.val) % 1024 = h.val; omega)

end Cert.Bridge

end
-- ==== Proof.LibConcatLast.lean ====
/-
  A concatenation of two rank-3 arrays along the last axis, read at an index given by coordinates. The pieces are
  `[a, b, c₁]` and `[a, b, c₂]`, the result `[a, b, c]` (so `c = c₁ + c₂`). Read at `(i₀, i₁, k)` the result is the first
  piece at `(i₀, i₁, k)` when `k < c₁`, and the second piece at `(i₀, i₁, k - c₁)` otherwise. Holds for any sizes and any
  element type.
-/
import Idealize.ShloMosaic.Lib.Pipeline.Value
import Idealize.ShloMosaic.Lib.ValueIdx

namespace Cert.LibConcatLast

open Idealize.ShloMosaic Idealize.ShloMosaic.ValueIdx

/-- The extents along the joined axis add up to the result's. -/
theorem extent_add {a b c₁ c₂ c : ℕ}
    (h : Shape.Concatenates [⟨3, ![a, b, c₁]⟩, ⟨3, ![a, b, c₂]⟩] ⟨3, ![a, b, c]⟩ (2 : Fin 3)) : c₁ + c₂ = c := by
  have h2 := h.2.2
  simpa using h2

/-- Below the first piece's extent the concatenation reads the first piece at the same coordinates. -/
theorem concatenate_last3_apply_left {α : Type} {a b c₁ c₂ c : ℕ}
    (x : (⟨3, ![a, b, c₁]⟩ : Shape).Idx → α) (y : (⟨3, ![a, b, c₂]⟩ : Shape).Idx → α)
    (h : Shape.Concatenates [⟨3, ![a, b, c₁]⟩, ⟨3, ![a, b, c₂]⟩] ⟨3, ![a, b, c]⟩ (2 : Fin 3))
    (i₀ : Fin a) (i₁ : Fin b) (k : Fin c) (hk : k.val < c₁) :
    concatenate ⟨3, ![a, b, c]⟩ (2 : Fin 3) [⟨_, x⟩, ⟨_, y⟩] h (ix3 i₀ i₁ k) = x (ix3 i₀ i₁ ⟨k.val, hk⟩) :=
  concatenate_pair_apply_left (t := ⟨3, ![a, b, c]⟩) (2 : Fin 3) x y h (ix3 i₀ i₁ k) rfl (ix3 i₀ i₁ ⟨k.val, hk⟩) (fun d => by
    match d with
    | ⟨0, _⟩ => rfl
    | ⟨1, _⟩ => rfl
    | ⟨2, _⟩ => rfl)

/-- From the first piece's extent on the concatenation reads the second piece, the last coordinate that extent less. -/
theorem concatenate_last3_apply_right {α : Type} {a b c₁ c₂ c : ℕ}
    (x : (⟨3, ![a, b, c₁]⟩ : Shape).Idx → α) (y : (⟨3, ![a, b, c₂]⟩ : Shape).Idx → α)
    (h : Shape.Concatenates [⟨3, ![a, b, c₁]⟩, ⟨3, ![a, b, c₂]⟩] ⟨3, ![a, b, c]⟩ (2 : Fin 3))
    (i₀ : Fin a) (i₁ : Fin b) (k : Fin c) (hk : c₁ ≤ k.val) :
    concatenate ⟨3, ![a, b, c]⟩ (2 : Fin 3) [⟨_, x⟩, ⟨_, y⟩] h (ix3 i₀ i₁ k)
      = y (ix3 i₀ i₁ ⟨k.val - c₁, by have := extent_add h; have := k.isLt; omega⟩) :=
  concatenate_pair_apply_right (t := ⟨3, ![a, b, c]⟩) (2 : Fin 3) x y h (ix3 i₀ i₁ k) rfl rfl _
    (fun d hd => by
      match d with
      | ⟨0, _⟩ => rfl
      | ⟨1, _⟩ => rfl
      | ⟨2, _⟩ => exact absurd rfl hd)
    (by show (k.val - c₁) + c₁ = k.val; omega)

/-- The concatenation read at `(i₀, i₁, k)`: the first piece below its extent, the second piece from there on. -/
theorem concatenate_last3_apply {α : Type} {a b c₁ c₂ c : ℕ}
    (x : (⟨3, ![a, b, c₁]⟩ : Shape).Idx → α) (y : (⟨3, ![a, b, c₂]⟩ : Shape).Idx → α)
    (h : Shape.Concatenates [⟨3, ![a, b, c₁]⟩, ⟨3, ![a, b, c₂]⟩] ⟨3, ![a, b, c]⟩ (2 : Fin 3))
    (i₀ : Fin a) (i₁ : Fin b) (k : Fin c) :
    concatenate ⟨3, ![a, b, c]⟩ (2 : Fin 3) [⟨_, x⟩, ⟨_, y⟩] h (ix3 i₀ i₁ k)
      = if hk : k.val < c₁ then x (ix3 i₀ i₁ ⟨k.val, hk⟩)
        else y (ix3 i₀ i₁ ⟨k.val - c₁, by have := extent_add h; have := k.isLt; omega⟩) := by
  split
  · next hk => exact concatenate_last3_apply_left x y h i₀ i₁ k hk
  · next hk => exact concatenate_last3_apply_right x y h i₀ i₁ k (Nat.le_of_not_lt hk)

end Cert.LibConcatLast
-- ==== Proof.RefRest.lean ====
/-
  The reference's result is its arrangement of the logits: the mention sums, the concatenation, the two layers.
-/
import proofs.«411475_j52836687675513_2_alg».proof.Proof.RefRows
import proofs.«411475_j52836687675513_2_alg».proof.Proof.LibConcatLast

noncomputable section

open scoped BigOperators

namespace Cert.Bridge

open Idealize.ShloMosaic Idealize.ShloMosaic.ValueIdx Cert.ReferenceIdeal Cert.ReferenceIdeal.Gen

/-! ## The mention sums -/

/-- The head's gathered rows summed over the mentions. -/
private theorem v8_at (A : Args) (hr : InRange A) (b : Fin 8) (p : Fin 1024) (h : Fin 1024) :
    ReadP.val_main_v8 (F := Ideal) A.hs A.epi A.hti (ix3 b p h) = gat A 0 b p h := by
  rw [ReadP.val_main_v8_apply, ReadP.val_main_cst_apply, Ideal.ofBits_def, Ideal.ofBits_zero_f32, zero_add]
  unfold gat
  refine Finset.sum_congr rfl fun m _ => ?_
  have e : ReadP.idx_main_v8 (ix3 b p h) m = ix4 b p m h := funext fun a => by
    match a with
    | ⟨0, _⟩ => rfl
    | ⟨1, _⟩ => rfl
    | ⟨2, _⟩ => rfl
    | ⟨3, _⟩ => rfl
  rw [e, rows0 A hr]

/-- The tail's gathered rows summed over the mentions. -/
private theorem v17_at (A : Args) (hr : InRange A) (b : Fin 8) (p : Fin 1024) (h : Fin 1024) :
    ReadP.val_main_v17 (F := Ideal) A.hs A.epi A.hti (ix3 b p h) = gat A 1 b p h := by
  rw [ReadP.val_main_v17_apply, ReadP.val_main_cst_0_apply, Ideal.ofBits_def, Ideal.ofBits_zero_f32, zero_add]
  unfold gat
  refine Finset.sum_congr rfl fun m _ => ?_
  have e : ReadP.idx_main_v17 (ix3 b p h) m = ix4 b p m h := funext fun a => by
    match a with
    | ⟨0, _⟩ => rfl
    | ⟨1, _⟩ => rfl
    | ⟨2, _⟩ => rfl
    | ⟨3, _⟩ => rfl
  rw [e, rows1 A hr]

/-! ## The concatenation and its reshape -/

/-- Head and tail representations side by side. -/
private theorem v18_at (A : Args) (hr : InRange A) (b : Fin 8) (p : Fin 1024) (k : Fin 2048) :
    ReadP.val_main_v18 (F := Ideal) A.hs A.epi A.hti (ix3 b p k) = rel A b p k := by
  unfold ReadP.val_main_v18
  refine (Cert.LibConcatLast.concatenate_last3_apply _ _
    concatenates_S8x1024x1024_S8x1024x1024_S8x1024x2048_d2 b p k).trans ?_
  unfold rel
  by_cases hk : k.val < 1024
  · rw [dif_pos hk, dif_pos hk]
    exact v8_at A hr b p ⟨k.val, hk⟩
  · rw [dif_neg hk, dif_neg hk]
    exact v17_at A hr b p ⟨k.val - 1024, by omega⟩

/-- Row `1024 * b + p` of the reshaped array is pair `p` of batch `b`. -/
private theorem v19_at (A : Args) (hr : InRange A) (r : Fin 8192) (b : Fin 8) (p : Fin 1024)
    (hb : b.val = r.val / 1024) (hp : p.val = r.val % 1024) (k : Fin 2048) :
    ReadP.val_main_v19 (F := Ideal) A.hs A.epi A.hti (ix2 r k) = rel A b p k := by
  rw [ReadP.val_main_v19_apply]
  have e : ReadP.idx_main_v19 (ix2 r k) = ix3 b p k := funext fun a => Fin.ext (by
    have hk := k.isLt
    have hr' := r.isLt
    match a with
    | ⟨0, _⟩ => show (r.val * 2048 + k.val) / 2097152 = b.val; omega
    | ⟨1, _⟩ => show (r.val * 2048 + k.val) / 2048 % 1024 = p.val; omega
    | ⟨2, _⟩ => show (r.val * 2048 + k.val) % 2048 = k.val; omega)
  rw [e, v18_at A hr]

/-! ## The two layers -/

/-- The dense layer's product. -/
private theorem v20_at (A : Args) (hr : InRange A) (r : Fin 8192) (b : Fin 8) (p : Fin 1024)
    (hb : b.val = r.val / 1024) (hp : p.val = r.val % 1024) (h : Fin 1024) :
    ReadP.val_main_v20 (F := Ideal) A.hs A.dw A.epi A.hti (ix2 r h)
      = ∑ k : Fin 2048, rel A b p k * A.dw (ix2 k h) := by
  rw [ReadP.val_main_v20_apply]
  refine Finset.sum_congr rfl fun k _ => ?_
  have el : ReadP.lidx_main_v20 (ix2 r h) k = ix2 r k := funext fun a => by
    match a with
    | ⟨0, _⟩ => rfl
    | ⟨1, _⟩ => rfl
  have er : ReadP.ridx_main_v20 (ix2 r h) k = ix2 k h := funext fun a => by
    match a with
    | ⟨0, _⟩ => rfl
    | ⟨1, _⟩ => rfl
  rw [el, er, v19_at A hr r b p hb hp k]

/-- The dense layer with its bias. -/
private theorem v23_at (A : Args) (hr : InRange A) (r : Fin 8192) (b : Fin 8) (p : Fin 1024)
    (hb : b.val = r.val / 1024) (hp : p.val = r.val % 1024) (h : Fin 1024) :
    ReadP.val_main_v23 (F := Ideal) A.hs A.dw A.db A.epi A.hti (ix2 r h) = inter A b p h := by
  rw [ReadP.val_main_v23_apply, Ideal.addf_def, v20_at A hr r b p hb hp h, ReadP.val_main_v22_apply,
    ReadP.val_main_v21_apply]
  unfold inter
  refine congrArg (_ + ·) (congrArg A.db (funext fun a => ?_))
  match a with
  | ⟨0, _⟩ => rfl

/-- The output layer's product. -/
private theorem v24_at (A : Args) (hr : InRange A) (r : Fin 8192) (b : Fin 8) (p : Fin 1024)
    (hb : b.val = r.val / 1024) (hp : p.val = r.val % 1024) (j : Fin 97) :
    ReadP.val_main_v24 (F := Ideal) A.hs A.dw A.db A.ow A.epi A.hti (ix2 r j)
      = ∑ h : Fin 1024, inter A b p h * A.ow (ix2 h j) := by
  rw [ReadP.val_main_v24_apply]
  refine Finset.sum_congr rfl fun h _ => ?_
  have el : ReadP.lidx_main_v24 (ix2 r j) h = ix2 r h := funext fun a => by
    match a with
    | ⟨0, _⟩ => rfl
    | ⟨1, _⟩ => rfl
  have er : ReadP.ridx_main_v24 (ix2 r j) h = ix2 h j := funext fun a => by
    match a with
    | ⟨0, _⟩ => rfl
    | ⟨1, _⟩ => rfl
  rw [el, er, v23_at A hr r b p hb hp h]

/-- The output layer with its bias: the logit. -/
private theorem v27_at (A : Args) (hr : InRange A) (r : Fin 8192) (b : Fin 8) (p : Fin 1024)
    (hb : b.val = r.val / 1024) (hp : p.val = r.val % 1024) (j : Fin 97) :
    ReadP.val_main_v27 (F := Ideal) A.hs A.dw A.db A.ow A.ob A.epi A.hti (ix2 r j) = rval A b p j := by
  rw [ReadP.val_main_v27_apply, Ideal.addf_def, v24_at A hr r b p hb hp j, ReadP.val_main_v26_apply,
    ReadP.val_main_v25_apply]
  unfold rval
  refine congrArg (_ + ·) (congrArg A.ob (funext fun a => ?_))
  match a with
  | ⟨0, _⟩ => rfl

/-- Under the index ranges the reference's composed term is `RSpec`. -/
theorem ref_eq (A : Args) (hr : InRange A) :
    Cert.ReferenceIdeal.ReadP.val_main_v27 (F := Ideal) A.hs A.dw A.db A.ow A.ob A.epi A.hti = RSpec A := by
  funext i
  obtain ⟨r, j, rfl⟩ : ∃ r j, i = ix2 r j := ⟨i 0, i 1, eq_ix2 i⟩
  exact v27_at A hr r (outB (ix2 r j)) (outP (ix2 r j)) rfl rfl j

end Cert.Bridge

end
-- ==== Proof.lean ====
/-
  The certificate's claims, assembled.

  The program classifies entity pairs of a document: an entity's representation is the sum of the hidden rows at its
  mention positions; a pair's head and tail representations are concatenated and sent through a dense layer and an
  output layer.  The kernel folds the two layers into one weight per half and one bias on the host, gathers the
  mentions by a product with a count matrix and selects head and tail by products with one-hot matrices; the reference
  gathers, sums, concatenates and multiplies.  Under the precondition — finite float inputs, mention positions in
  [0, 2048), entity indices in [0, 32) — both compute the same logits (module Algebra), the kernel's arrangement
  being what its program leaves (modules KBody, KHost, KValue) and the reference's what its run's term reads as
  (modules RefRows, RefRest).
-/
import proofs.«411475_j52836687675513_2_alg».proof.Defs
import proofs.«411475_j52836687675513_2_alg».proof.Proof.Gen.Kernel
import proofs.«411475_j52836687675513_2_alg».proof.Proof.Gen.Kernel.Skeleton
import proofs.«411475_j52836687675513_2_alg».proof.Proof.Gen.Kernel.Launch
import proofs.«411475_j52836687675513_2_alg».proof.Proof.Gen.Kernel.Points
import proofs.«411475_j52836687675513_2_alg».proof.Proof.Gen.Kernel.Frame
import proofs.«411475_j52836687675513_2_alg».proof.Proof.Gen.KernelIdeal
import proofs.«411475_j52836687675513_2_alg».proof.Proof.Gen.KernelIdeal.Skeleton
import proofs.«411475_j52836687675513_2_alg».proof.Proof.Gen.KernelIdeal.Launch
import proofs.«411475_j52836687675513_2_alg».proof.Proof.Gen.KernelIdeal.Points
import proofs.«411475_j52836687675513_2_alg».proof.Proof.Gen.KernelIdeal.Frame
import proofs.«411475_j52836687675513_2_alg».proof.Proof.Gen.ReferenceIdeal
import proofs.«411475_j52836687675513_2_alg».proof.Proof.Gen.Pre_finite_inputs
import proofs.«411475_j52836687675513_2_alg».proof.Proof.Pre
import proofs.«411475_j52836687675513_2_alg».proof.Proof.Algebra
import proofs.«411475_j52836687675513_2_alg».proof.Proof.KBody
import proofs.«411475_j52836687675513_2_alg».proof.Proof.KHost
import proofs.«411475_j52836687675513_2_alg».proof.Proof.KValue
import proofs.«411475_j52836687675513_2_alg».proof.Proof.RefRest
import Idealize.ShloMosaic.Adequacy
import Idealize.ShloMosaic.Init

noncomputable section

namespace Cert.Proof

open Idealize.ShloMosaic Idealize.ShloMosaic.TcCoe Idealize.SL.Sem Cert.Bridge

/-- The word-level kernel's frame: generated whole. -/
theorem frame_k : Cert.frame_Kernel := fun m ρ _ => Cert.Kernel.Gen.frame m ρ

/-- The idealized kernel's frame: generated whole. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The body's store, entry by entry, and the host's folded arrays. -/
theorem body_stmt : BodyStmt := fun x0 x1 x2 x3 x4 x5 h1 h2 p j => body_apply x0 x1 x2 x3 x4 x5 h1 h2 p j

theorem host_stmt (m : (ℓ : Loc Cert.KernelIdeal.nD Cert.KernelIdeal.τ Cert.KernelIdeal.sig) → Buf (Elt Ideal) ℓ) : HostStmt m :=
  ⟨V_hti m, V_wc1 m, V_wc2 m, V_bc m⟩

/-- Both idealized programs end at the same logits: the kernel at its arrangement, the reference at its own, equal
    over finite reals. -/
theorem algebraic : Cert.algebraic_KernelIdeal_ReferenceIdeal := by
  intro m ρ m' ρ' hpre hagree
  have hp : ∀ c, Finite (kargs m c) ∧ InRange (kargs m c) := fun c => pre_facts (kargs m c) (hpre c)
  refine ⟨fun c => KSpec (kargs m c), kernel_value body_stmt m (host_stmt m) (fun c => (hp c).2) ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v27_eq, (hagree c).1, (hagree c).2.1, (hagree c).2.2.1, (hagree c).2.2.2.1,
    (hagree c).2.2.2.2.1, (hagree c).2.2.2.2.2.1, (hagree c).2.2.2.2.2.2]
  exact (ref_eq (kargs m c) (hp c).2).trans (KSpec_eq_RSpec (kargs m c) (hp c).1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
